-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S512x512 : Shape := ⟨2, ![512, 512]⟩
abbrev S32768 : Shape := ⟨1, ![32768]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S32768 : S_.BroadcastsInDim S32768 (![] : Fin 0 → Fin S32768.rank)
  reducesTo_S32768_S_d0 : S32768.ReducesTo [0] S_

variable [Facts]

def fn_part1 {F : FTy → Type} [FloatOps F] (main_arg3 : IVec S32768 32) (main_arg4 : IVec S32768 32) (main_v13 : IVec S_ 1) (main_v15 : IVec S32768 1) (main_c_5 : IVec S_ 32) : IVec S_ 1 :=
  let main_v16 : IVec S32768 32 := broadcastInDim S32768 ![] bcast_S_S32768 main_c_5
  let main_v17 : IVec S32768 1 := cmpi .slt main_arg3 main_v16
  let main_v18 : IVec S32768 1 := andi main_v15 main_v17
  let main_c_6 : IVec S_ 1 := constantI S_ 1 1#1
  let main_v19 : IVec S_ 1 := (fun x v => Host.reduce IntOp.andi x v reducesTo_S32768_S_d0 h_S_) main_v18 main_c_6
  let main_v20 : IVec S_ 1 := andi main_v13 main_v19
  let main_c_7 : IVec S_ 32 := constantI S_ 32 0#32
  let main_v21 : IVec S32768 32 := broadcastInDim S32768 ![] bcast_S_S32768 main_c_7
  let main_v22 : IVec S32768 1 := cmpi .sge main_arg4 main_v21
  let main_c_8 : IVec S_ 32 := constantI S_ 32 128#32
  let main_v23 : IVec S32768 32 := broadcastInDim S32768 ![] bcast_S_S32768 main_c_8
  let main_v24 : IVec S32768 1 := cmpi .slt main_arg4 main_v23
  let main_v25 : IVec S32768 1 := andi main_v22 main_v24
  let main_c_9 : IVec S_ 1 := constantI S_ 1 1#1
  let main_v26 : IVec S_ 1 := (fun x v => Host.reduce IntOp.andi x v reducesTo_S32768_S_d0 h_S_) main_v25 main_c_9
  let main_v27 : IVec S_ 1 := andi main_v20 main_v26
  main_v27

def fn {F : FTy → Type} [FloatOps F] (main_arg0 : FVec F S32768x512 .f32) (main_arg1 : FVec F S32768x512 .f32) (main_arg2 : FVec F S512x512 .f32) (main_arg3 : IVec S32768 32) (main_arg4 : IVec S32768 32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_c_4 : IVec S_ 32 := constantI S_ 32 0#32
  let main_v14 : IVec S32768 32 := broadcastInDim S32768 ![] bcast_S_S32768 main_c_4
  let main_v15 : IVec S32768 1 := cmpi .sge main_arg3 main_v14
  let main_c_5 : IVec S_ 32 := constantI S_ 32 128#32
  fn_part1 (F := F) main_arg3 main_arg4 main_v13 main_v15 main_c_5
-- ==== Kernel.lean ====
abbrev S32768x512 : Shape := ⟨2, ![32768, 512]⟩
abbrev S512x512 : Shape := ⟨2, ![512, 512]⟩
abbrev S32768 : Shape := ⟨1, ![32768]⟩
abbrev S32768x1 : Shape := ⟨2, ![32768, 1]⟩
abbrev S2x128x512 : Shape := ⟨3, ![2, 128, 512]⟩
abbrev S2x1x128 : Shape := ⟨3, ![2, 1, 128]⟩
abbrev S2048x512 : Shape := ⟨2, ![2048, 512]⟩
abbrev S2048x1 : Shape := ⟨2, ![2048, 1]⟩
abbrev S1x128x512 : Shape := ⟨3, ![1, 128, 512]⟩
abbrev S1x1x128 : Shape := ⟨3, ![1, 1, 128]⟩
abbrev S128x512 : Shape := ⟨2, ![128, 512]⟩
abbrev S1x128 : Shape := ⟨2, ![1, 128]⟩
abbrev S2048x128 : Shape := ⟨2, ![2048, 128]⟩
abbrev S128 : Shape := ⟨1, ![128]⟩
abbrev S_ : Shape := ⟨0, ![]⟩
abbrev S2x1x1 : Shape := ⟨3, ![2, 1, 1]⟩
abbrev S1x1x1 : Shape := ⟨3, ![1, 1, 1]⟩
abbrev S1x1 : Shape := ⟨2, ![1, 1]⟩
abbrev S2048 : Shape := ⟨1, ![2048]⟩
abbrev S1x2048x1 : Shape := ⟨3, ![1, 2048, 1]⟩
abbrev S1 : Shape := ⟨1, ![1]⟩

abbrev nBuf : Space → Nat
  | .hbm => 19
  | .vmem => 21
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S512x512, .f32⟩
  | .hbm, ⟨3, _⟩ => ⟨S32768, .i32⟩
  | .hbm, ⟨4, _⟩ => ⟨S32768, .i32⟩
  | .hbm, ⟨5, _⟩ => ⟨S32768x1, .i32⟩
  | .hbm, ⟨6, _⟩ => ⟨S2x128x512, .f32⟩
  | .hbm, ⟨7, _⟩ => ⟨S2x1x128, .f32⟩
  | .hbm, ⟨8, _⟩ => ⟨S_, .f32⟩
  | .hbm, ⟨9, _⟩ => ⟨S128x512, .f32⟩
  | .hbm, ⟨10, _⟩ => ⟨S_, .f32⟩
  | .hbm, ⟨11, _⟩ => ⟨S1x128, .f32⟩
  | .hbm, ⟨12, _⟩ => ⟨S32768x1, .i32⟩
  | .hbm, ⟨13, _⟩ => ⟨S32768x1, .i32⟩
  | .hbm, ⟨14, _⟩ => ⟨S2x1x1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S2048x1, .i32⟩
  | .local _ .vmem, ⟨3, _⟩ => ⟨S2048x1, .i32⟩
  | .local _ .vmem, ⟨4, _⟩ => ⟨S1x128x512, .f32⟩
  | .local _ .vmem, ⟨5, _⟩ => ⟨S1x128x512, .f32⟩
  | .local _ .vmem, ⟨6, _⟩ => ⟨S1x1x128, .f32⟩
  | .local _ .vmem, ⟨7, _⟩ => ⟨S1x1x128, .f32⟩
  | .local _ .vmem, ⟨8, _⟩ => ⟨S2048x512, .f32⟩
  | .local _ .vmem, ⟨9, _⟩ => ⟨S2048x512, .f32⟩
  | .local _ .vmem, ⟨10, _⟩ => ⟨S2048x512, .f32⟩
  | .local _ .vmem, ⟨11, _⟩ => ⟨S2048x512, .f32⟩
  | .local _ .vmem, ⟨12, _⟩ => ⟨S2048x1, .i32⟩
  | .local _ .vmem, ⟨13, _⟩ => ⟨S2048x1, .i32⟩
  | .local _ .vmem, ⟨14, _⟩ => ⟨S2048x1, .i32⟩
  | .local _ .vmem, ⟨15, _⟩ => ⟨S2048x1, .i32⟩
  | .local _ .vmem, ⟨16, _⟩ => ⟨S128x512, .f32⟩
  | .local _ .vmem, ⟨17, _⟩ => ⟨S1x128, .f32⟩
  | .local _ .vmem, ⟨18, _⟩ => ⟨S512x512, .f32⟩
  | .local _ .vmem, ⟨19, _⟩ => ⟨S1x1x1, .f32⟩
  | .local _ .vmem, ⟨20, _⟩ => ⟨S1x1x1, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem7_1 : DmaSem sig := 20

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2048x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2048x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S128x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S512x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x1x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  shapeCasts_S32768_S32768x1 : S32768.ShapeCasts S32768x1
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  shapeCasts_S128x512_S1x128x512 : S128x512.ShapeCasts S1x128x512
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  iota_S2048x128_d1_w32 : S2048x128.Iotas .tc 32 [1]
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x128 : S2048x1.Broadcasts S2048x128
  natLt_1_32 : 1 < 32
  inb_S2048x512_S2048x512_0_0 : ∀ a, (![0, 0] : Fin 2 → Nat) a + S2048x512.size a ≤ S2048x512.size a
  h_S2048x512 : 0 < S2048x512.numel
  reduces_S2048x128_S128 : S2048x128.Reduces [0] S128
  shapeCasts_S128_S1x128 : S128.ShapeCasts S1x128
  reducesTo_S2x128x512_S128x512_d0 : S2x128x512.ReducesTo [0] S128x512
  h_S_ : 0 < S_.numel
  reducesTo_S2x1x128_S1x128_d0 : S2x1x128.ReducesTo [0] S1x128
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  reduces_S2048x128_S2048 : S2048x128.Reduces [1] S2048
  shapeCasts_S2048_S2048x1 : S2048.ShapeCasts S2048x1
  broadcasts_S2048x1_S2048x512 : S2048x1.Broadcasts S2048x512
  inb_S512x512_S512x512_0_0 : ∀ a, (![0, 0] : Fin 2 → Nat) a + S512x512.size a ≤ S512x512.size a
  h_S512x512 : 0 < S512x512.numel
  reduces_S2048x512_S2048 : S2048x512.Reduces [1] S2048
  shapeCasts_S2048x1_S1x2048x1 : S2048x1.ShapeCasts S1x2048x1
  reduces_S1x2048x1_S1 : S1x2048x1.Reduces [1, 2] S1
  shapeCasts_S1_S1x1x1 : S1.ShapeCasts S1x1x1
  inpos_S1x1x1_p0_0_0 : ∀ a, (![0, 0, 0] : Fin 3 → Nat) a < S1x1x1.size a
  reducesTo_S2x1x1_S_d0_1_2 : S2x1x1.ReducesTo [0, 1, 2] S_
  dot_S2048x128_S2048x512_S128x512_0_0_1_1_n_n_wf : DotDims.WF S2048x128 S2048x512 S128x512 [0] [0] [1] [1] [] []
  dot_S2048x128_S128x512_S2048x512_1_0_0_1_n_n_wf : DotDims.WF S2048x128 S128x512 S2048x512 [1] [0] [0] [1] [] []
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S32768x512.size a
  hwx0_0 : ∀ i : grid0.Coords, EltTy.bits .f32 = 32 ∨ (Rect.block (s := S32768x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S32768x1.size a
  hwx0_1 : ∀ i : grid0.Coords, EltTy.bits .i32 = 32 ∨ (Rect.block (s := S32768x1) S2048x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x512.size a ≤ S2x128x512.size a
  hwx0_2 : ∀ i : grid0.Coords, EltTy.bits .f32 = 32 ∨ (Rect.block (s := S2x128x512) S1x128x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S2x1x128.size a
  hwx0_3 : ∀ i : grid0.Coords, EltTy.bits .f32 = 32 ∨ (Rect.block (s := S2x1x128) S1x1x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S32768x512.size a
  hwx1_0 : ∀ i : grid1.Coords, EltTy.bits .f32 = 32 ∨ (Rect.block (s := S32768x512) S2048x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S32768x512.size a
  hwx1_1 : ∀ i : grid1.Coords, EltTy.bits .f32 = 32 ∨ (Rect.block (s := S32768x512) S2048x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S32768x1.size a
  hwx1_2 : ∀ i : grid1.Coords, EltTy.bits .i32 = 32 ∨ (Rect.block (s := S32768x1) S2048x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1.size a ≤ S32768x1.size a
  hwx1_3 : ∀ i : grid1.Coords, EltTy.bits .i32 = 32 ∨ (Rect.block (s := S32768x1) S2048x1.size (cc1_transform_3 i) (hinb1_3 i)).WholeWords (EltTy.packing .i32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x512.size a ≤ S128x512.size a
  hwx1_4 : ∀ i : grid1.Coords, EltTy.bits .f32 = 32 ∨ (Rect.block (s := S128x512) S128x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512x512.size a ≤ S512x512.size a
  hwx1_6 : ∀ i : grid1.Coords, EltTy.bits .f32 = 32 ∨ (Rect.block (s := S512x512) S512x512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1x1.size a ≤ S2x1x1.size a
  hwx1_7 : ∀ i : grid1.Coords, EltTy.bits .f32 = 32 ∨ (Rect.block (s := S2x1x1) S1x1x1.size (cc1_transform_7 i) (hinb1_7 i)).WholeWords (EltTy.packing .f32)

variable [Facts₀]

def dot_S2048x128_S2048x512_S128x512_0_0_1_1_n_n : DotDims S2048x128 S2048x512 S128x512 where
  lhsContracting := [0]
  rhsContracting := [0]
  lhsNonContracting := [1]
  rhsNonContracting := [1]
  lhsBatch := []
  rhsBatch := []
  wf := dot_S2048x128_S2048x512_S128x512_0_0_1_1_n_n_wf
def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg1) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x128x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S2048x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S128x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg2) S512x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v6) S1x1x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S32768x512 : Shape := ⟨2, ![32768, 512]⟩
abbrev S512x512 : Shape := ⟨2, ![512, 512]⟩
abbrev S32768 : Shape := ⟨1, ![32768]⟩
abbrev S_ : Shape := ⟨0, ![]⟩
abbrev S128x512 : Shape := ⟨2, ![128, 512]⟩
abbrev S32768x1 : Shape := ⟨2, ![32768, 1]⟩
abbrev S128 : Shape := ⟨1, ![128]⟩

abbrev nBuf : Space → Nat
  | .hbm => 102
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S512x512, .f32⟩
  | .hbm, ⟨3, _⟩ => ⟨S32768, .i32⟩
  | .hbm, ⟨4, _⟩ => ⟨S32768, .i32⟩
  | .hbm, ⟨5, _⟩ => ⟨S_, .f32⟩
  | .hbm, ⟨6, _⟩ => ⟨S128x512, .f32⟩
  | .hbm, ⟨7, _⟩ => ⟨S32768x1, .i32⟩
  | .hbm, ⟨8, _⟩ => ⟨S128x512, .f32⟩
  | .hbm, ⟨9, _⟩ => ⟨S_, .f32⟩
  | .hbm, ⟨10, _⟩ => ⟨S32768, .f32⟩
  | .hbm, ⟨11, _⟩ => ⟨S_, .f32⟩
  | .hbm, ⟨12, _⟩ => ⟨S128, .f32⟩
  | .hbm, ⟨13, _⟩ => ⟨S32768x1, .i32⟩
  | .hbm, ⟨14, _⟩ => ⟨S128, .f32⟩
  | .hbm, ⟨15, _⟩ => ⟨S_, .i32⟩
  | .hbm, ⟨16, _⟩ => ⟨S32768, .i32⟩
  | .hbm, ⟨17, _⟩ => ⟨S32768, .i1⟩
  | .hbm, ⟨18, _⟩ => ⟨S_, .i32⟩
  | .hbm, ⟨19, _⟩ => ⟨S32768, .i32⟩
  | .hbm, ⟨20, _⟩ => ⟨S32768, .i32⟩
  | .hbm, ⟨21, _⟩ => ⟨S32768, .i32⟩
  | .hbm, ⟨22, _⟩ => ⟨S32768x1, .i32⟩
  | .hbm, ⟨23, _⟩ => ⟨S32768x512, .f32⟩
  | .hbm, ⟨24, _⟩ => ⟨S32768x512, .f32⟩
  | .hbm, ⟨25, _⟩ => ⟨S_, .i32⟩
  | .hbm, ⟨26, _⟩ => ⟨S32768, .i32⟩
  | .hbm, ⟨27, _⟩ => ⟨S32768, .i1⟩
  | .hbm, ⟨28, _⟩ => ⟨S_, .i32⟩
  | .hbm, ⟨29, _⟩ => ⟨S32768, .i32⟩
  | .hbm, ⟨30, _⟩ => ⟨S32768, .i32⟩
  | .hbm, ⟨31, _⟩ => ⟨S32768, .i32⟩
  | .hbm, ⟨32, _⟩ => ⟨S32768x1, .i32⟩
  | .hbm, ⟨33, _⟩ => ⟨S32768, .f32⟩
  | .hbm, ⟨34, _⟩ => ⟨S_, .f32⟩
  | .hbm, ⟨35, _⟩ => ⟨S32768, .f32⟩
  | .hbm, ⟨36, _⟩ => ⟨S32768, .f32⟩
  | .hbm, ⟨37, _⟩ => ⟨S_, .f32⟩
  | .hbm, ⟨38, _⟩ => ⟨S32768, .f32⟩
  | .hbm, ⟨39, _⟩ => ⟨S32768, .f32⟩
  | .hbm, ⟨40, _⟩ => ⟨S32768x1, .f32⟩
  | .hbm, ⟨41, _⟩ => ⟨S32768x512, .f32⟩
  | .hbm, ⟨42, _⟩ => ⟨S32768x512, .f32⟩
  | .hbm, ⟨43, _⟩ => ⟨S_, .i32⟩
  | .hbm, ⟨44, _⟩ => ⟨S32768, .i32⟩
  | .hbm, ⟨45, _⟩ => ⟨S32768, .i1⟩
  | .hbm, ⟨46, _⟩ => ⟨S_, .i32⟩
  | .hbm, ⟨47, _⟩ => ⟨S32768, .i32⟩
  | .hbm, ⟨48, _⟩ => ⟨S32768, .i32⟩
  | .hbm, ⟨49, _⟩ => ⟨S32768, .i32⟩
  | .hbm, ⟨50, _⟩ => ⟨S32768x1, .i32⟩
  | .hbm, ⟨51, _⟩ => ⟨S32768x512, .f32⟩
  | .hbm, ⟨52, _⟩ => ⟨S_, .i32⟩
  | .hbm, ⟨53, _⟩ => ⟨S32768, .i32⟩
  | .hbm, ⟨54, _⟩ => ⟨S32768, .i1⟩
  | .hbm, ⟨55, _⟩ => ⟨S_, .i32⟩
  | .hbm, ⟨56, _⟩ => ⟨S32768, .i32⟩
  | .hbm, ⟨57, _⟩ => ⟨S32768, .i32⟩
  | .hbm, ⟨58, _⟩ => ⟨S32768, .i32⟩
  | .hbm, ⟨59, _⟩ => ⟨S32768x1, .i32⟩
  | .hbm, ⟨60, _⟩ => ⟨S32768, .f32⟩
  | .hbm, ⟨61, _⟩ => ⟨S_, .f32⟩
  | .hbm, ⟨62, _⟩ => ⟨S32768, .f32⟩
  | .hbm, ⟨63, _⟩ => ⟨S32768, .f32⟩
  | .hbm, ⟨64, _⟩ => ⟨S32768x1, .f32⟩
  | .hbm, ⟨65, _⟩ => ⟨S32768x512, .f32⟩
  | .hbm, ⟨66, _⟩ => ⟨S32768x512, .f32⟩
  | .hbm, ⟨67, _⟩ => ⟨S32768x512, .f32⟩
  | .hbm, ⟨68, _⟩ => ⟨S32768x512, .f32⟩
  | .hbm, ⟨69, _⟩ => ⟨S32768x512, .f32⟩
  | .hbm, ⟨70, _⟩ => ⟨S_, .f32⟩
  | .hbm, ⟨71, _⟩ => ⟨S32768, .f32⟩
  | .hbm, ⟨72, _⟩ => ⟨S_, .f32⟩
  | .hbm, ⟨73, _⟩ => ⟨S32768, .f32⟩
  | .hbm, ⟨74, _⟩ => ⟨S32768, .f32⟩
  | .hbm, ⟨75, _⟩ => ⟨S_, .f32⟩
  | .hbm, ⟨76, _⟩ => ⟨S32768, .f32⟩
  | .hbm, ⟨77, _⟩ => ⟨S32768, .f32⟩
  | .hbm, ⟨78, _⟩ => ⟨S32768, .f32⟩
  | .hbm, ⟨79, _⟩ => ⟨S32768x512, .f32⟩
  | .hbm, ⟨80, _⟩ => ⟨S32768x512, .f32⟩
  | .hbm, ⟨81, _⟩ => ⟨S32768x512, .f32⟩
  | .hbm, ⟨82, _⟩ => ⟨S_, .f32⟩
  | .hbm, ⟨83, _⟩ => ⟨S32768, .f32⟩
  | .hbm, ⟨84, _⟩ => ⟨S_, .f32⟩
  | .hbm, ⟨85, _⟩ => ⟨S32768, .f32⟩
  | .hbm, ⟨86, _⟩ => ⟨S32768, .f32⟩
  | .hbm, ⟨87, _⟩ => ⟨S_, .f32⟩
  | .hbm, ⟨88, _⟩ => ⟨S32768, .f32⟩
  | .hbm, ⟨89, _⟩ => ⟨S32768, .f32⟩
  | .hbm, ⟨90, _⟩ => ⟨S32768, .f32⟩
  | .hbm, ⟨91, _⟩ => ⟨S32768, .f32⟩
  | .hbm, ⟨92, _⟩ => ⟨S_, .f32⟩
  | .hbm, ⟨93, _⟩ => ⟨S32768, .f32⟩
  | .hbm, ⟨94, _⟩ => ⟨S32768, .f32⟩
  | .hbm, ⟨95, _⟩ => ⟨S_, .f32⟩
  | .hbm, ⟨96, _⟩ => ⟨S32768, .f32⟩
  | .hbm, ⟨97, _⟩ => ⟨S32768, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_7 : Ref sig .tc := ⟨.hbm, 43, rfl⟩
abbrev main_v29 : Ref sig .tc := ⟨.hbm, 44, rfl⟩
abbrev main_v30 : Ref sig .tc := ⟨.hbm, 45, rfl⟩
abbrev main_c_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_9 : Ref sig .tc := ⟨.hbm, 52, rfl⟩
abbrev main_v36 : Ref sig .tc := ⟨.hbm, 53, rfl⟩
abbrev main_v37 : Ref sig .tc := ⟨.hbm, 54, rfl⟩
abbrev main_c_10 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_12 : Ref sig .tc := ⟨.hbm, 70, rfl⟩
abbrev main_v51 : Ref sig .tc := ⟨.hbm, 71, rfl⟩
abbrev main_call0_cst : Ref sig .tc := ⟨.hbm, 72, rfl⟩
abbrev main_call0_v0 : Ref sig .tc := ⟨.hbm, 73, rfl⟩
abbrev main_v52 : Ref sig .tc := ⟨.hbm, 74, rfl⟩
abbrev main_cst_13 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_14 : Ref sig .tc := ⟨.hbm, 82, rfl⟩
abbrev main_v59 : Ref sig .tc := ⟨.hbm, 83, rfl⟩
abbrev main_call1_cst : Ref sig .tc := ⟨.hbm, 84, rfl⟩
abbrev main_call1_v0 : Ref sig .tc := ⟨.hbm, 85, rfl⟩
abbrev main_v60 : Ref sig .tc := ⟨.hbm, 86, rfl⟩
abbrev main_cst_15 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_16 : Ref sig .tc := ⟨.hbm, 92, rfl⟩
abbrev main_v65 : Ref sig .tc := ⟨.hbm, 93, rfl⟩
abbrev main_v66 : Ref sig .tc := ⟨.hbm, 94, rfl⟩
abbrev main_call2_cst : Ref sig .tc := ⟨.hbm, 95, rfl⟩
abbrev main_call2_v0 : Ref sig .tc := ⟨.hbm, 96, rfl⟩
abbrev main_v67 : Ref sig .tc := ⟨.hbm, 97, rfl⟩
abbrev main_cst_17 : Ref sig .tc := ⟨.hbm, 98, rfl⟩
abbrev main_v68 : Ref sig .tc := ⟨.hbm, 99, rfl⟩
abbrev main_cst_18 : Ref sig .tc := ⟨.hbm, 100, rfl⟩
abbrev main_v69 : Ref sig .tc := ⟨.hbm, 101, rfl⟩

abbrev nD : Nat := 1
abbrev τ : Topo := Topo.v7x

variable {F : FTy → Type} [FloatOps F]

class Facts₀ : Prop where
  bcast_S_S128x512 : S_.BroadcastsInDim S128x512 (![] : Fin 0 → Fin S128x512.rank)
  bcast_S32768_S32768x1_0 : S32768.BroadcastsInDim S32768x1 (![0] : Fin 1 → Fin S32768x1.rank)
  bcast_S_S32768 : S_.BroadcastsInDim S32768 (![] : Fin 0 → Fin S32768.rank)
  bcast_S_S128 : S_.BroadcastsInDim S128 (![] : Fin 0 → Fin S128.rank)
  bcast_S32768x1_S32768x512_0_1 : S32768x1.BroadcastsInDim S32768x512 (![0, 1] : Fin 2 → Fin S32768x512.rank)
  reducesTo_S32768x512_S32768_d1 : S32768x512.ReducesTo [1] S32768
  h_S_ : 0 < S_.numel
  reducesTo_S32768_S_d0 : S32768.ReducesTo [0] S_
  scatter_S128x512_S32768x1_S32768x512_1_0_0_1_wf : ScatterDims.WF S128x512 S32768x1 S32768x512 [1] [0] [0] 1
  scatter_S128_S32768x1_S32768_n_0_0_1_wf : ScatterDims.WF S128 S32768x1 S32768 [] [0] [0] 1
  gather_S128x512_S32768x1_S32768x512_1_0_n_n_0_1_1512_wf : GatherDims.WF S128x512 S32768x1 S32768x512 [1] [0] [] [0] [] 1 ![1, 512]
  gather_S128_S32768x1_S32768_n_0_n_n_0_1_1_wf : GatherDims.WF S128 S32768x1 S32768 [] [0] [] [0] [] 1 ![1]
  dot_S32768x512_S512x512_S32768x512_1_0_0_1_n_n_wf : DotDims.WF S32768x512 S512x512 S32768x512 [1] [0] [0] [1] [] []

variable [Facts₀]

def scatter_S128x512_S32768x1_S32768x512_1_0_0_1 : ScatterDims S128x512 S32768x1 S32768x512 where
  updateWindowDims := [1]
  insertedWindowDims := [0]
  scatterDimsToOperandDims := [0]
  indexVectorDim := 1
  wf := scatter_S128x512_S32768x1_S32768x512_1_0_0_1_wf
def scatter_S128_S32768x1_S32768_n_0_0_1 : ScatterDims S128 S32768x1 S32768 where
  updateWindowDims := []
  insertedWindowDims := [0]
  scatterDimsToOperandDims := [0]
  indexVectorDim := 1
  wf := scatter_S128_S32768x1_S32768_n_0_0_1_wf
def gather_S128x512_S32768x1_S32768x512_1_0_n_n_0_1_1512 : GatherDims S128x512 S32768x1 S32768x512 where
  offsetDims := [1]
  collapsedSliceDims := [0]
  operandBatchingDims := []
  startIndicesBatchingDims := []
  startIndexMap := [0]
  indexVectorDim := 1
  sliceSizes := ![1, 512]
  wf := gather_S128x512_S32768x1_S32768x512_1_0_n_n_0_1_1512_wf
def gather_S128_S32768x1_S32768_n_0_n_n_0_1_1 : GatherDims S128 S32768x1 S32768 where
  offsetDims := []
  collapsedSliceDims := [0]
  operandBatchingDims := []
  startIndicesBatchingDims := []
  startIndexMap := [0]
  indexVectorDim := 1
  sliceSizes := ![1]
  wf := gather_S128_S32768x1_S32768_n_0_n_n_0_1_1_wf
def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf

class Facts : Prop extends Facts₀ where

variable [Facts]
-- ==== Proof.Spec.lean ====
/-
  The centroid triplet loss as ONE function of the argument arrays, over the extended reals.

  For a batch of 32768 rows of width 512 and 128 classes: the class sum `csum E lab k` adds the embedding rows whose
  label is `k`, the class count `ccnt lab k` counts them. A row's positive centre is its own class's sum less the row
  itself over (count − 1, at least 1); its negative centre the negative class's sum over its count (at least 1). The
  distance of the anchor row from a centre is the Mahalanobis form `√(max (vᵀ C v) 0 + ε)`, and a row's loss is
  `max (d⁺ − d⁻ + margin) 0`. The result is the mean over the batch.

  A class is selected by the indicator `sel x k` (1 when the label word `x` is the class `k`, else 0), and a table is
  read at a label by the indicator sum `pick x f = ∑ k, sel x k · f k`: for a label inside `[0, 128)` this is the
  table's entry at the label (`pick_of_lt`), which is where a lookup by index and a product with a one-hot row meet.
  Nothing here opens the arithmetic of the extended reals beyond `0 · x = 0`, `1 · x = x` and the commutative-monoid
  laws of `+`: both programs apply the same operations in the same order to each row.
-/
import Idealize.ShloMosaic.PureOps.Ideal
import Idealize.ShloMosaic.Lib.ValueIdx

noncomputable section

namespace Cert.Triplet

open Idealize.ShloMosaic

/-- The literals both programs carry, as the words they print: 0, 1, ε = f32(1e-12), the margin f32(0.1), 32768. -/
abbrev zero : EReal := Ideal.ofBits .f32 0x00000000#32
abbrev one : EReal := Ideal.ofBits .f32 0x3F800000#32
abbrev eps : EReal := Ideal.ofBits .f32 0x2B8CBCCC#32
abbrev margin : EReal := Ideal.ofBits .f32 0x3DCCCCCD#32
abbrev batch : EReal := Ideal.ofBits .f32 0x47000000#32

/-- The indicator of "the label word `x` is class `k`". -/
def sel (x : BitVec 32) (k : Fin 128) : EReal := if x = BitVec.ofNat 32 k.val then 1 else 0

/-- A table over the classes read at a label word: the indicator sum. -/
def pick (x : BitVec 32) (f : Fin 128 → EReal) : EReal := ∑ k : Fin 128, sel x k * f k

/-- Class `k`'s sum of embedding rows, at column `d`. -/
def csum (E : Fin 32768 → Fin 512 → EReal) (lab : Fin 32768 → BitVec 32) (k : Fin 128) (d : Fin 512) : EReal :=
  ∑ b : Fin 32768, sel (lab b) k * E b d

/-- Class `k`'s number of rows. -/
def ccnt (lab : Fin 32768 → BitVec 32) (k : Fin 128) : EReal := ∑ b : Fin 32768, sel (lab b) k

/-- The Mahalanobis distance form of a difference row `v`: `√(max (∑ d, (∑ j, v j · C j d) · v d) 0 + ε)`. -/
def dist (C : Fin 512 → Fin 512 → EReal) (v : Fin 512 → EReal) : EReal :=
  Ideal.sqrt (max (∑ d : Fin 512, (∑ j : Fin 512, v j * C j d) * v d) zero + eps)

/-- One row's loss from the class tables `S` (sums) and `N` (counts): labels `x` (own) and `y` (negative), anchor row
    `a`, embedding row `e`. -/
def rowLoss (S : Fin 128 → Fin 512 → EReal) (N : Fin 128 → EReal) (C : Fin 512 → Fin 512 → EReal)
    (x y : BitVec 32) (a e : Fin 512 → EReal) : EReal :=
  max (dist C (fun d => a d - Ideal.div (pick x (fun k => S k d) - e d) (max (pick x N - one) one))
        - dist C (fun d => a d - Ideal.div (pick y (fun k => S k d)) (max (pick y N) one))
        + margin) zero

/-- The loss: the mean of the rows' losses, the tables the batch's own class sums and counts. -/
def loss (A E : Fin 32768 → Fin 512 → EReal) (C : Fin 512 → Fin 512 → EReal) (lab neg : Fin 32768 → BitVec 32) : EReal :=
  Ideal.div (∑ b : Fin 32768, rowLoss (csum E lab) (ccnt lab) C (lab b) (neg b) (A b) (E b)) batch

/-- Row `r` of step `s` of half `q` of the batch: the kernel walks the batch as 2 halves of 8 steps of 2048 rows. -/
def row (q : Fin 2) (s : Fin 8) (r : Fin 2048) : Fin 32768 := ⟨(q.val * 8 + s.val) * 2048 + r.val, by omega⟩

/-- A sum over the batch, walked half by half, step by step, row by row. -/
theorem sum_batch_eq {M : Type*} [AddCommMonoid M] (f : Fin 32768 → M) :
    ∑ b : Fin 32768, f b = ∑ q : Fin 2, ∑ s : Fin 8, ∑ r : Fin 2048, f (row q s r) := by
  have e1 : ∑ b : Fin 32768, f b = ∑ p : (Fin 2 × Fin 8) × Fin 2048, f (row p.1.1 p.1.2 p.2) := by
    refine (Fintype.sum_bijective (fun p : (Fin 2 × Fin 8) × Fin 2048 => row p.1.1 p.1.2 p.2) ?_ _ _ (fun _ => rfl)).symm
    refine (Fintype.bijective_iff_injective_and_card _).2 ⟨?_, by simp⟩
    rintro ⟨⟨q, s⟩, r⟩ ⟨⟨q', s'⟩, r'⟩ h
    have h' : (q.val * 8 + s.val) * 2048 + r.val = (q'.val * 8 + s'.val) * 2048 + r'.val := congrArg Fin.val h
    have hq : q = q' := Fin.ext (by omega)
    have hs : s = s' := Fin.ext (by omega)
    have hr : r = r' := Fin.ext (by omega)
    subst hq hs hr; rfl
  rw [e1, Fintype.sum_prod_type, Fintype.sum_prod_type]

/-- The indicator of a label at its own class is 1 and at any other class 0: a table read by the indicator sum at a label
    inside `[0, 128)` is the table's entry there. -/
theorem pick_of_lt (x : BitVec 32) (hx : x.toNat < 128) (f : Fin 128 → EReal) : pick x f = f ⟨x.toNat, hx⟩ := by
  unfold pick
  rw [Finset.sum_eq_single (⟨x.toNat, hx⟩ : Fin 128)]
  · have : x = BitVec.ofNat 32 x.toNat := by simp
    unfold sel; rw [if_pos this, one_mul]
  · intro k _ hk
    have : x ≠ BitVec.ofNat 32 k.val := by
      intro e
      apply hk
      have : x.toNat = k.val := by
        have := congrArg BitVec.toNat e
        rw [BitVec.toNat_ofNat, Nat.mod_eq_of_lt (by have := k.isLt; omega)] at this
        exact this
      exact Fin.ext this.symm
    unfold sel; rw [if_neg this, zero_mul]
  · intro h; exact absurd (Finset.mem_univ _) h

end Cert.Triplet

end
-- ==== Proof.Stats.lean ====
/-
  The value of the class-statistics region.

  The region walks the batch as 2 halves of 8 steps of 2048 rows. At step `s` of half `q` the body adds to the half's
  [128, 512] block of sums the product (one-hot of the step's labels)ᵀ · (the step's embedding rows) — entry (k, d) gains
  `∑ r, sel (label r) k · E r d` — and to its [1, 128] block of counts the column sums of the one-hot block — entry k gains
  `∑ r, sel (label r) k`; the first step of a half clears both blocks first. So after a half's last step the blocks hold the sums
  over the half's 8 · 2048 rows, and that is what is written back to entry `q` of the two outputs.
-/
import proofs.«405454_j56848187129916_2_alg».proof.Proof.Gen.KernelIdeal.Frame
import proofs.«405454_j56848187129916_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stats

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Triplet

/-! ## What one grid point leaves in the two accumulator blocks

The body of the class-statistics region, run at one grid point, ends with one covering store into each accumulator
block. At a point that opens a half of the batch the accumulators are first cleared, so the value the store leaves is
computed from the zero block; at every other point it is computed from the block the point before left. -/

section Pieces

variable {F : FTy → Type} [FloatOps F]

private theorem hz3 : (![0, 0, 0] : Fin 3 → Nat) = fun _ => 0 := funext fun a => by fin_cases a <;> rfl
private theorem hz2 : (![0, 0] : Fin 2 → Nat) = fun _ => 0 := funext fun a => by fin_cases a <;> rfl

/-- A point that does not reset leaves the sums block at the block it held plus the one-hot product. -/
private theorem out_B_2 (c : Dev nD) (i : grid0.Coords) (a2 : Memref sig .tc .vmem S2048x512 .f32) (h2 : a2.IsWhole)
    (a3 : Memref sig .tc .vmem S2048x1 .i32) (h3 : a3.IsWhole) (a4 : Memref sig .tc .vmem S1x128x512 .f32) (h4 : a4.IsWhole)
    (a5 : Memref sig .tc .vmem S1x1x128 .f32) (h5 : a5.IsWhole) (hc : ¬cond0_0 i)
    (x0 : Vec F S2048x512 .f32) (x1 : Vec F S2048x1 .i32) (xo2 : Vec F S1x128x512 .f32) (xo3 : Vec F S1x1x128 .f32) :
    out0_B_2 c i a2 h2 a3 h3 a4 h4 a5 h5 hc x0 x1 xo2 xo3 = k0_pay4 x1 xo2 x0 := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread, h5.read_unread,
    View.ld_unit_zero (S := S2048x512) hz2, View.ld_unit_zero (S := S2048x1) hz2,
    View.ld_unit_zero (S := S1x128x512) hz3, View.ld_unit_zero (S := S1x1x128) hz3]

/-- A point that does not reset leaves the counts block at the block it held plus the one-hot column sums. -/
private theorem out_B_3 (c : Dev nD) (i : grid0.Coords) (a2 : Memref sig .tc .vmem S2048x512 .f32) (h2 : a2.IsWhole)
    (a3 : Memref sig .tc .vmem S2048x1 .i32) (h3 : a3.IsWhole) (a4 : Memref sig .tc .vmem S1x128x512 .f32) (h4 : a4.IsWhole)
    (a5 : Memref sig .tc .vmem S1x1x128 .f32) (h5 : a5.IsWhole) (hc : ¬cond0_0 i)
    (x0 : Vec F S2048x512 .f32) (x1 : Vec F S2048x1 .i32) (xo2 : Vec F S1x128x512 .f32) (xo3 : Vec F S1x1x128 .f32) :
    out0_B_3 c i a2 h2 a3 h3 a4 h4 a5 h5 hc x0 x1 xo2 xo3 = k0_pay5 x1 xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread, h5.read_unread,
    View.ld_unit_zero (S := S2048x512) hz2, View.ld_unit_zero (S := S2048x1) hz2,
    View.ld_unit_zero (S := S1x128x512) hz3, View.ld_unit_zero (S := S1x1x128) hz3]

/-- A point that resets leaves the sums block at the zero block plus the one-hot product. -/
private theorem out_A_2 (c : Dev nD) (i : grid0.Coords) (a2 : Memref sig .tc .vmem S2048x512 .f32) (h2 : a2.IsWhole)
    (a3 : Memref sig .tc .vmem S2048x1 .i32) (h3 : a3.IsWhole) (a4 : Memref sig .tc .vmem S1x128x512 .f32) (h4 : a4.IsWhole)
    (a5 : Memref sig .tc .vmem S1x1x128 .f32) (h5 : a5.IsWhole) (hc : cond0_0 i)
    (x0 : Vec F S2048x512 .f32) (x1 : Vec F S2048x1 .i32) :
    out0_A_2 c i a2 h2 a3 h3 a4 h4 a5 h5 hc x0 x1 = k0_pay4 x1 (k0_pay1 (F := F)) x0 := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x128x512) hz3, View.readCov_unit_zero (S := S1x128x512) _ hz3]
  simp only [View.readAt_eq_ld, h2.read_unread, h3.read_unread, h4.read_unread, h5.read_unread,
    View.ld_unit_zero (S := S2048x512) hz2, View.ld_unit_zero (S := S2048x1) hz2,
    View.ld_unit_zero (S := S1x128x512) hz3, View.ld_unit_zero (S := S1x1x128) hz3]

/-- A point that resets leaves the counts block at the zero block plus the one-hot column sums. -/
private theorem out_A_3 (c : Dev nD) (i : grid0.Coords) (a2 : Memref sig .tc .vmem S2048x512 .f32) (h2 : a2.IsWhole)
    (a3 : Memref sig .tc .vmem S2048x1 .i32) (h3 : a3.IsWhole) (a4 : Memref sig .tc .vmem S1x128x512 .f32) (h4 : a4.IsWhole)
    (a5 : Memref sig .tc .vmem S1x1x128 .f32) (h5 : a5.IsWhole) (hc : cond0_0 i)
    (x0 : Vec F S2048x512 .f32) (x1 : Vec F S2048x1 .i32) :
    out0_A_3 c i a2 h2 a3 h3 a4 h4 a5 h5 hc x0 x1 = k0_pay5 x1 (k0_pay2 (F := F)) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x1x128) hz3, View.readCov_unit_zero (S := S1x1x128) _ hz3]
  simp only [View.readAt_eq_ld, h2.read_unread, h3.read_unread, h4.read_unread, h5.read_unread,
    View.ld_unit_zero (S := S2048x512) hz2, View.ld_unit_zero (S := S2048x1) hz2,
    View.ld_unit_zero (S := S1x128x512) hz3, View.ld_unit_zero (S := S1x1x128) hz3]

end Pieces

/-! ## The payloads, entry by entry, over the extended reals -/

section Payloads

/-- The word test behind the one-hot block: "the words are equal", widened and read as a signed integer, is 1 or 0. -/
private theorem onehot_word (x y : BitVec 32) :
    ((((IntOp.cmpi .eq x y).setWidth 32).toInt : ℝ) : EReal) = if x = y then 1 else 0 := by
  by_cases h : x = y
  · subst h
    have e : IntOp.cmpi .eq x x = 1#1 := by simp [IntOp.cmpi]
    have e' : ((1#1 : BitVec 1).setWidth 32).toInt = 1 := by decide
    rw [if_pos rfl, e, e']; simp
  · have e : IntOp.cmpi .eq x y = 0#1 := by
      show BitVec.ofBool (x == y) = 0#1
      rw [beq_eq_false_iff_ne.mpr h]; rfl
    have e' : ((0#1 : BitVec 1).setWidth 32).toInt = 0 := by decide
    rw [if_neg h, e, e']; simp

/-- The cleared sums block is zero everywhere. -/
private theorem pay1_apply (k : Fin 128) (d : Fin 512) :
    ((k0_pay1 (F := Ideal)) : S1x128x512.Idx → EReal) (ix3 0 k d) = 0 := by
  unfold k0_pay1
  refine (shapeCast_ab_1ab_apply _ shapeCasts_S128x512_S1x128x512 0 k d).trans ?_
  exact Ideal.ofBits_zero_f32

/-- The cleared counts block is zero everywhere. -/
private theorem pay2_apply (k : Fin 128) :
    ((k0_pay2 (F := Ideal)) : S1x1x128.Idx → EReal) (ix3 0 0 k) = 0 := by
  unfold k0_pay2
  refine (shapeCast_ab_1ab_apply _ shapeCasts_S1x128_S1x1x128 0 0 k).trans ?_
  exact Ideal.ofBits_zero_f32

/-- Entry (r, k) of the one-hot block is the indicator that row r's label word is class k. -/
private theorem pay3_apply (v4 : Vec Ideal S2048x1 .i32) (r : Fin 2048) (k : Fin 128) :
    ((k0_pay3 (F := Ideal) v4) : S2048x128.Idx → EReal) (ix2 r k) = sel (v4 (ix2 r 0)) k := by
  unfold k0_pay3
  have e6 : broadcastTo S2048x128 (shapeCast S2048x1 v4 shapeCasts_S2048x1_S2048x1) broadcasts_S2048x1_S2048x128 (ix2 r k)
      = v4 (ix2 r 0) := by
    refine (broadcastTo_apply _ broadcasts_S2048x1_S2048x128 (ix2 r k) (ix2 r 0) ?_).trans ?_
    · intro a
      match a with
      | ⟨0, _⟩ => rfl
      | ⟨1, _⟩ => rfl
    · rw [shapeCast_self]
  have e3 : iota .tc S2048x128 32 [1] iota_S2048x128_d1_w32 (ix2 r k) = BitVec.ofNat 32 k.val :=
    iota_single_apply .tc S2048x128 32 1 iota_S2048x128_d1_w32 (ix2 r k)
  show ((((IntOp.cmpi .eq
      (broadcastTo S2048x128 (shapeCast S2048x1 v4 shapeCasts_S2048x1_S2048x1) broadcasts_S2048x1_S2048x128 (ix2 r k))
      (iota .tc S2048x128 32 [1] iota_S2048x128_d1_w32 (ix2 r k))).setWidth 32).toInt : ℝ) : EReal) = _
  rw [e6, e3]
  exact onehot_word _ _

/-! The four coordinates of the matmul's operand indices: it contracts axis 0 of the one-hot block with axis 0 of the
embeddings block, and the result's axes are the two kept ones. -/

private theorem lhs_0 (j : S128x512.Idx) (q : dot_S2048x128_S2048x512_S128x512_0_0_1_1_n_n.contr.Idx) :
    (dot_S2048x128_S2048x512_S128x512_0_0_1_1_n_n.lhsIdx j q 0).val = (q ⟨0, by decide⟩).val :=
  dot_S2048x128_S2048x512_S128x512_0_0_1_1_n_n.lhsIdx_val_of_single rfl j q
private theorem lhs_1 (j : S128x512.Idx) (q : dot_S2048x128_S2048x512_S128x512_0_0_1_1_n_n.contr.Idx) :
    (dot_S2048x128_S2048x512_S128x512_0_0_1_1_n_n.lhsIdx j q 1).val = (j 0).val := by
  unfold DotDims.lhsIdx
  rw [dif_neg (show ¬(1 : Fin S2048x128.rank) ∈ dot_S2048x128_S2048x512_S128x512_0_0_1_1_n_n.lhsBatch by decide), dif_pos (show (1 : Fin S2048x128.rank) ∈ dot_S2048x128_S2048x512_S128x512_0_0_1_1_n_n.lhsNonContracting by decide)]
  rfl
private theorem rhs_0 (j : S128x512.Idx) (q : dot_S2048x128_S2048x512_S128x512_0_0_1_1_n_n.contr.Idx) :
    (dot_S2048x128_S2048x512_S128x512_0_0_1_1_n_n.rhsIdx j q 0).val = (q ⟨0, by decide⟩).val :=
  dot_S2048x128_S2048x512_S128x512_0_0_1_1_n_n.rhsIdx_val_of_single rfl j q
private theorem rhs_1 (j : S128x512.Idx) (q : dot_S2048x128_S2048x512_S128x512_0_0_1_1_n_n.contr.Idx) :
    (dot_S2048x128_S2048x512_S128x512_0_0_1_1_n_n.rhsIdx j q 1).val = (j 1).val := by
  unfold DotDims.rhsIdx
  rw [dif_neg (show ¬(1 : Fin S2048x512.rank) ∈ dot_S2048x128_S2048x512_S128x512_0_0_1_1_n_n.rhsBatch by decide), dif_pos (show (1 : Fin S2048x512.rank) ∈ dot_S2048x128_S2048x512_S128x512_0_0_1_1_n_n.rhsNonContracting by decide)]
  rfl

/-- Entry (k, d) of the updated sums block: what the block held there, plus the sum over the point's 2048 rows of the
    row's class-k indicator times the row's embedding at column d. -/
private theorem pay4_apply (v4 : Vec Ideal S2048x1 .i32) (v10 : Vec Ideal S1x128x512 .f32) (v12 : Vec Ideal S2048x512 .f32)
    (k : Fin 128) (d : Fin 512) :
    ((k0_pay4 (F := Ideal) v4 v10 v12) : S1x128x512.Idx → EReal) (ix3 0 k d)
      = (v10 : S1x128x512.Idx → EReal) (ix3 0 k d)
        + ∑ r : Fin 2048, sel (v4 (ix2 r 0)) k * (v12 : S2048x512.Idx → EReal) (ix2 r d) := by
  unfold k0_pay4
  refine (shapeCast_ab_1ab_apply _ shapeCasts_S128x512_S1x128x512 0 k d).trans ?_
  refine congrArg₂ (· + ·) (shapeCast_1ab_ab_apply v10 shapeCasts_S1x128x512_S128x512 k d) ?_
  refine (Ideal.matmul_constant_zero_apply dot_S2048x128_S2048x512_S128x512_0_0_1_1_n_n (some .fp32) (k0_pay3 (F := Ideal) v4) v12 (ix2 k d)).trans ?_
  rw [← Equiv.sum_comp (contrEquiv1 dot_S2048x128_S2048x512_S128x512_0_0_1_1_n_n 2048 rfl rfl).symm]
  refine Finset.sum_congr rfl fun r _ => ?_
  have hk := contrEquiv1_symm_val dot_S2048x128_S2048x512_S128x512_0_0_1_1_n_n 2048 rfl rfl r
  have el : dot_S2048x128_S2048x512_S128x512_0_0_1_1_n_n.lhsIdx (ix2 k d) ((contrEquiv1 dot_S2048x128_S2048x512_S128x512_0_0_1_1_n_n 2048 rfl rfl).symm r) = ix2 r k := funext fun a => Fin.ext (by
    match a with
    | ⟨0, _⟩ => exact (lhs_0 _ _).trans hk
    | ⟨1, _⟩ => exact lhs_1 _ _)
  have er : dot_S2048x128_S2048x512_S128x512_0_0_1_1_n_n.rhsIdx (ix2 k d) ((contrEquiv1 dot_S2048x128_S2048x512_S128x512_0_0_1_1_n_n 2048 rfl rfl).symm r) = ix2 r d := funext fun a => Fin.ext (by
    match a with
    | ⟨0, _⟩ => exact (rhs_0 _ _).trans hk
    | ⟨1, _⟩ => exact rhs_1 _ _)
  rw [el, er, pay3_apply]

/-- Entry k of the updated counts block: what the block held there, plus the number of the point's 2048 rows whose label
    is class k (the sum of the indicators). -/
private theorem pay5_apply (v4 : Vec Ideal S2048x1 .i32) (v18 : Vec Ideal S1x1x128 .f32) (k : Fin 128) :
    ((k0_pay5 (F := Ideal) v4 v18) : S1x1x128.Idx → EReal) (ix3 0 0 k)
      = (v18 : S1x1x128.Idx → EReal) (ix3 0 0 k) + ∑ r : Fin 2048, sel (v4 (ix2 r 0)) k := by
  unfold k0_pay5
  refine (shapeCast_ab_1ab_apply _ shapeCasts_S1x128_S1x1x128 0 0 k).trans ?_
  refine congrArg₂ (· + ·) (shapeCast_1ab_ab_apply v18 shapeCasts_S1x1x128_S1x128 0 k) ?_
  refine (shapeCast_a_1a_apply _ shapeCasts_S128_S1x128 0 k).trans ?_
  refine (Ideal.multiReduction_add_single (k0_pay3 (F := Ideal) v4) 0x00000000#32 reduces_S2048x128_S128 (.inl rfl) rfl (ix1 k)).trans ?_
  show ∑ r : Fin 2048, (k0_pay3 (F := Ideal) v4) (reduces_S2048x128_S128.lift (ix1 k) r) = _
  refine Finset.sum_congr rfl fun r _ => ?_
  have e : reduces_S2048x128_S128.lift (ix1 k) r = ix2 r k := funext fun a => Fin.ext (by
    match a with
    | ⟨0, _⟩ => rfl
    | ⟨1, _⟩ => rfl)
  rw [e, pay3_apply]

end Payloads

/-! ## The blocks a grid point reads, and the rows they hold -/

section Blocks

/-- The printed index maps, decided over the sixteen grid points: point t reads row block t of both inputs (all their
    columns), and both of its output blocks are block t / 8. -/
private theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = 0 ∧ win0_3.index t (2 : Fin 3) = 0 :=
  (by decide +kernel : ∀ t : Fin grid0.N, _)

/-- Row r of grid point n's block of the batch. -/
private def prow (n : ℕ) (hn : n < 16) (r : Fin 2048) : Fin 32768 := ⟨n * 2048 + r.val, by omega⟩

/-- Grid point 8q + s is step s of half q: its rows are that step's rows. -/
private theorem prow_eq (q : Fin 2) (s : Fin 8) (r : Fin 2048) (n : ℕ) (hn : n < 16) (e : n = 8 * q.val + s.val) :
    prow n hn r = row q s r := by
  subst e
  exact Fin.ext (by show (8 * q.val + s.val) * 2048 + r.val = (q.val * 8 + s.val) * 2048 + r.val; omega)

end Blocks

variable (V : (c : Dev nD) → (b : Ref sig .tc) → Buf (Elt Ideal) ((c : Thread nD τ).loc b))

/-- The embeddings array as the class-statistics region finds it. -/
abbrev emb (c : Dev nD) : Vec Ideal S32768x512 .f32 := V c main_arg1
/-- The labels, as a column, as the class-statistics region finds them. -/
abbrev lab2 (c : Dev nD) : Vec Ideal S32768x1 .i32 := V c main_v0

/-- The embeddings block of point t at (r, d) is the embeddings array at (row r of the point, d). -/
private theorem emb_blk (c : Dev nD) (t : Fin cfg0.N) (ht : t.val < 16) (r : Fin 2048) (d : Fin 512) :
    (iblk0 V c 0 t : S2048x512.Idx → EReal) (ix2 r d) = emb V c (ix2 (prow t.val ht r) d) := by
  obtain ⟨i0, i1, -⟩ := idx_facts t
  unfold iblk0
  rw [View.read_apply]
  show V c main_arg1 _ = V c main_arg1 _
  refine congrArg (V c main_arg1) (funext fun a => Fin.ext ?_)
  match a with
  | ⟨0, _⟩ => show win0_0.index t (0 : Fin 2) * 2048 + 1 * r.val = t.val * 2048 + r.val; rw [i0]; omega
  | ⟨1, _⟩ => show win0_0.index t (1 : Fin 2) * 512 + 1 * d.val = d.val; rw [i1]; omega

/-- The labels block of point t at (r, 0) is the labels column at row r of the point. -/
private theorem lab_blk (c : Dev nD) (t : Fin cfg0.N) (ht : t.val < 16) (r : Fin 2048) :
    (iblk0 V c 1 t : Vec Ideal S2048x1 .i32) (ix2 r 0) = lab2 V c (ix2 (prow t.val ht r) 0) := by
  obtain ⟨-, -, i0, i1, -⟩ := idx_facts t
  unfold iblk0
  rw [View.read_apply]
  show V c main_v0 _ = V c main_v0 _
  refine congrArg (V c main_v0) (funext fun a => Fin.ext ?_)
  match a with
  | ⟨0, _⟩ => show win0_1.index t (0 : Fin 2) * 2048 + 1 * r.val = t.val * 2048 + r.val; rw [i0]; omega
  | ⟨1, _⟩ => show win0_1.index t (1 : Fin 2) * 1 + 1 * (0 : Fin 1).val = (0 : Fin 1).val; rw [i1]; simp

/-! ## What one grid point adds, and the fold over a half of the batch -/

/-- What grid point n adds to entry (k, d) of the sums block: over the point's 2048 rows, the class-k indicator of the
    row's label times the row's embedding at column d. (Past the grid it is set to zero; no statement reads it there.) -/
private def add2 (c : Dev nD) (n : ℕ) (p : Fin 128 × Fin 512) : EReal :=
  if hn : n < 16 then ∑ r : Fin 2048, sel (lab2 V c (ix2 (prow n hn r) 0)) p.1 * emb V c (ix2 (prow n hn r) p.2) else 0

/-- What grid point n adds to entry k of the counts block: the number of the point's rows whose label is class k. -/
private def add3 (c : Dev nD) (n : ℕ) (k : Fin 128) : EReal :=
  if hn : n < 16 then ∑ r : Fin 2048, sel (lab2 V c (ix2 (prow n hn r) 0)) k else 0

/-- At a point that opens a half, the sums block is left at zero plus the point's contribution. -/
private theorem sums_reset (c : Dev nD) (n : ℕ) (h : n < cfg0.N) (h0 : n % 8 = 0) (p : Fin 128 × Fin 512) :
    ((outsAt0 V c n h).1 : S1x128x512.Idx → EReal) (ix3 0 p.1 p.2) = 0 + add2 V c n p := by
  have ht : n < 16 := lt_of_lt_of_eq h (show cfg0.N = 16 from N_0)
  rw [outsAt0_A V c ⟨n, h⟩ h0]
  dsimp only
  refine (congrFun (out_A_2 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) ((hcond0_0 ⟨n, h⟩).mpr h0) (iblk0 V c 0 ⟨n, h⟩) (iblk0 V c 1 ⟨n, h⟩)) (ix3 0 p.1 p.2)).trans ?_
  refine (pay4_apply (iblk0 V c 1 ⟨n, h⟩) (k0_pay1 (F := Ideal)) (iblk0 V c 0 ⟨n, h⟩) p.1 p.2).trans ?_
  refine congrArg₂ (· + ·) (pay1_apply p.1 p.2) ?_
  unfold add2
  rw [dif_pos ht]
  refine Finset.sum_congr rfl fun r _ => ?_
  rw [emb_blk V c ⟨n, h⟩ ht r p.2, lab_blk V c ⟨n, h⟩ ht r]

/-- At every other point, the sums block is left at what the point before left plus the point's contribution. -/
private theorem sums_step (c : Dev nD) (n : ℕ) (h : n + 1 < cfg0.N) (h0 : ¬(n + 1) % 8 = 0) (p : Fin 128 × Fin 512) :
    ((outsAt0 V c (n + 1) h).1 : S1x128x512.Idx → EReal) (ix3 0 p.1 p.2)
      = ((outsAt0 V c n (Nat.lt_of_succ_lt h)).1 : S1x128x512.Idx → EReal) (ix3 0 p.1 p.2) + add2 V c (n + 1) p := by
  have ht : n + 1 < 16 := lt_of_lt_of_eq h (show cfg0.N = 16 from N_0)
  rw [outsAt0_B V c ⟨n + 1, h⟩ h0]
  dsimp only
  refine (congrFun (out_B_2 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (fun hh => h0 ((hcond0_0 ⟨n + 1, h⟩).mp hh)) (iblk0 V c 0 ⟨n + 1, h⟩) (iblk0 V c 1 ⟨n + 1, h⟩) (outsAt0 V c n (Nat.lt_of_succ_lt h)).1 (outsAt0 V c n (Nat.lt_of_succ_lt h)).2) (ix3 0 p.1 p.2)).trans ?_
  refine (pay4_apply (iblk0 V c 1 ⟨n + 1, h⟩) (outsAt0 V c n (Nat.lt_of_succ_lt h)).1 (iblk0 V c 0 ⟨n + 1, h⟩) p.1 p.2).trans ?_
  refine congrArg₂ (· + ·) rfl ?_
  unfold add2
  rw [dif_pos ht]
  refine Finset.sum_congr rfl fun r _ => ?_
  rw [emb_blk V c ⟨n + 1, h⟩ ht r p.2, lab_blk V c ⟨n + 1, h⟩ ht r]

/-- So after any grid point n the sums block holds the contributions of the points of n's half up to n. -/
private theorem sums_point (c : Dev nD) (n : ℕ) (h : n < cfg0.N) (p : Fin 128 × Fin 512) :
    ((outsAt0 V c n h).1 : S1x128x512.Idx → EReal) (ix3 0 p.1 p.2)
      = 0 + ∑ s ∈ Finset.range (n % 8 + 1), add2 V c (8 * (n / 8) + s) p := by
  have h' : 8 * (n / 8) + n % 8 < cfg0.N := by rw [Nat.div_add_mod]; exact h
  have e := Pipeline.eq_accAt_of_mod (N := cfg0.N)
    (fun n h (p : Fin 128 × Fin 512) => ((outsAt0 V c n h).1 : S1x128x512.Idx → EReal) (ix3 0 p.1 p.2)) 8
    (fun n _ p => 0 + add2 V c n p) (fun n _ acc p => acc p + add2 V c n p)
    (fun n h h0 => funext fun p => sums_reset V c n h h0 p)
    (fun n h h0 => funext fun p => sums_step V c n h h0 p)
    (by decide) n h h'
  refine (congrFun e p).trans ?_
  exact Pipeline.accAt_add_apply _ _ (fun _ => 0) (add2 V c) (8 * (n / 8)) 7 (fun _ _ => rfl) (fun _ _ _ _ _ _ => rfl)
    (n % 8) (by omega) h' p

/-- At a point that opens a half, the counts block is left at zero plus the point's count. -/
private theorem cnts_reset (c : Dev nD) (n : ℕ) (h : n < cfg0.N) (h0 : n % 8 = 0) (k : Fin 128) :
    ((outsAt0 V c n h).2 : S1x1x128.Idx → EReal) (ix3 0 0 k) = 0 + add3 V c n k := by
  have ht : n < 16 := lt_of_lt_of_eq h (show cfg0.N = 16 from N_0)
  rw [outsAt0_A V c ⟨n, h⟩ h0]
  dsimp only
  refine (congrFun (out_A_3 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) ((hcond0_0 ⟨n, h⟩).mpr h0) (iblk0 V c 0 ⟨n, h⟩) (iblk0 V c 1 ⟨n, h⟩)) (ix3 0 0 k)).trans ?_
  refine (pay5_apply (iblk0 V c 1 ⟨n, h⟩) (k0_pay2 (F := Ideal)) k).trans ?_
  refine congrArg₂ (· + ·) (pay2_apply k) ?_
  unfold add3
  rw [dif_pos ht]
  refine Finset.sum_congr rfl fun r _ => ?_
  rw [lab_blk V c ⟨n, h⟩ ht r]

/-- At every other point, the counts block is left at what the point before left plus the point's count. -/
private theorem cnts_step (c : Dev nD) (n : ℕ) (h : n + 1 < cfg0.N) (h0 : ¬(n + 1) % 8 = 0) (k : Fin 128) :
    ((outsAt0 V c (n + 1) h).2 : S1x1x128.Idx → EReal) (ix3 0 0 k)
      = ((outsAt0 V c n (Nat.lt_of_succ_lt h)).2 : S1x1x128.Idx → EReal) (ix3 0 0 k) + add3 V c (n + 1) k := by
  have ht : n + 1 < 16 := lt_of_lt_of_eq h (show cfg0.N = 16 from N_0)
  rw [outsAt0_B V c ⟨n + 1, h⟩ h0]
  dsimp only
  refine (congrFun (out_B_3 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (fun hh => h0 ((hcond0_0 ⟨n + 1, h⟩).mp hh)) (iblk0 V c 0 ⟨n + 1, h⟩) (iblk0 V c 1 ⟨n + 1, h⟩) (outsAt0 V c n (Nat.lt_of_succ_lt h)).1 (outsAt0 V c n (Nat.lt_of_succ_lt h)).2) (ix3 0 0 k)).trans ?_
  refine (pay5_apply (iblk0 V c 1 ⟨n + 1, h⟩) (outsAt0 V c n (Nat.lt_of_succ_lt h)).2 k).trans ?_
  refine congrArg₂ (· + ·) rfl ?_
  unfold add3
  rw [dif_pos ht]
  refine Finset.sum_congr rfl fun r _ => ?_
  rw [lab_blk V c ⟨n + 1, h⟩ ht r]

/-- So after any grid point n the counts block holds the counts of the points of n's half up to n. -/
private theorem cnts_point (c : Dev nD) (n : ℕ) (h : n < cfg0.N) (k : Fin 128) :
    ((outsAt0 V c n h).2 : S1x1x128.Idx → EReal) (ix3 0 0 k)
      = 0 + ∑ s ∈ Finset.range (n % 8 + 1), add3 V c (8 * (n / 8) + s) k := by
  have h' : 8 * (n / 8) + n % 8 < cfg0.N := by rw [Nat.div_add_mod]; exact h
  have e := Pipeline.eq_accAt_of_mod (N := cfg0.N)
    (fun n h (k : Fin 128) => ((outsAt0 V c n h).2 : S1x1x128.Idx → EReal) (ix3 0 0 k)) 8
    (fun n _ k => 0 + add3 V c n k) (fun n _ acc k => acc k + add3 V c n k)
    (fun n h h0 => funext fun k => cnts_reset V c n h h0 k)
    (fun n h h0 => funext fun k => cnts_step V c n h h0 k)
    (by decide) n h h'
  refine (congrFun e k).trans ?_
  exact Pipeline.accAt_add_apply _ _ (fun _ => 0) (add3 V c) (8 * (n / 8)) 7 (fun _ _ => rfl) (fun _ _ _ _ _ _ => rfl)
    (n % 8) (by omega) h' k

/-! ## The write-back: the two arrays after the region

Half q's accumulator blocks are written back once, after the half's last point 8q + 7, into block q of each output
array; by then they hold the contributions of the half's eight points. -/

/-- The sums array as the region leaves it: entry (q, k, d) sums, over the 8 steps and 2048 rows of half q, the class-k
    indicator of the row's label times the row's embedding at column d. -/
private def G2 (c : Dev nD) : S2x128x512.Idx → EReal := fun i =>
  ∑ s : Fin 8, ∑ r : Fin 2048, sel (lab2 V c (ix2 (row (i 0) s r) 0)) (i 1) * emb V c (ix2 (row (i 0) s r) (i 2))

/-- The counts array as the region leaves it: entry (q, 0, k) counts the rows of half q whose label is class k. -/
private def G3 (c : Dev nD) : S2x1x128.Idx → EReal := fun i =>
  ∑ s : Fin 8, ∑ r : Fin 2048, sel (lab2 V c (ix2 (row (i 0) s r) 0)) (i 2)

/-- What a point that writes the sums block back writes is its block of `G2`. -/
private theorem flushed2 (c : Dev nD) (t : Fin cfg0.N) (hf : (cfg0.win 2).flush t = true) :
    (dat0 V c).flushed 2 t = ((cfg0.win 2).blk t).view.read (Elt Ideal) (G2 V c) := by
  have h7 : t.val % 8 = 7 := (flush0_2 t).mp hf
  have ht : t.val < 16 := lt_of_lt_of_eq t.isLt (show cfg0.N = 16 from N_0)
  obtain ⟨-, -, -, -, j0, j1, j2, -⟩ := idx_facts t
  show (cfg0.win 2).cut (grid0.coords t) ((dat0 V c).after 2 t) = _
  rw [after0_2]
  refine funext fun (j : S1x128x512.Idx) => ?_
  obtain ⟨u, k, d, rfl⟩ : ∃ (u : Fin 1) (k : Fin 128) (d : Fin 512), j = ix3 u k d := ⟨j 0, j 1, j 2, eq_ix3 j⟩
  obtain rfl : u = 0 := Subsingleton.elim _ _
  rw [View.read_apply]
  have hemb : ((cfg0.win 2).blk t).view.emb (ix3 (0 : Fin 1) k d) = ix3 (⟨t.val / 8, by omega⟩ : Fin 2) k d :=
    funext fun a => Fin.ext (by
      match a with
      | ⟨0, _⟩ => show win0_2.index t (0 : Fin 3) * 1 + 1 * (0 : Fin 1).val = t.val / 8; rw [j0]; simp
      | ⟨1, _⟩ => show win0_2.index t (1 : Fin 3) * 128 + 1 * k.val = k.val; rw [j1]; omega
      | ⟨2, _⟩ => show win0_2.index t (2 : Fin 3) * 512 + 1 * d.val = d.val; rw [j2]; omega)
  rw [hemb]
  show ((outsAt0 V c t.val t.isLt).1 : S1x128x512.Idx → EReal) (ix3 0 k d) = G2 V c (ix3 (⟨t.val / 8, by omega⟩ : Fin 2) k d)
  rw [sums_point V c t.val t.isLt (k, d), h7, zero_add, Finset.sum_range]
  show ∑ s : Fin 8, add2 V c (8 * (t.val / 8) + s.val) (k, d)
    = ∑ s : Fin 8, ∑ r : Fin 2048, sel (lab2 V c (ix2 (row (⟨t.val / 8, by omega⟩ : Fin 2) s r) 0)) k
        * emb V c (ix2 (row (⟨t.val / 8, by omega⟩ : Fin 2) s r) d)
  refine Finset.sum_congr rfl fun s _ => ?_
  unfold add2
  rw [dif_pos (show 8 * (t.val / 8) + s.val < 16 by omega)]
  refine Finset.sum_congr rfl fun r _ => ?_
  rw [prow_eq (⟨t.val / 8, by omega⟩ : Fin 2) s r _ _ rfl]

/-- What a point that writes the counts block back writes is its block of `G3`. -/
private theorem flushed3 (c : Dev nD) (t : Fin cfg0.N) (hf : (cfg0.win 3).flush t = true) :
    (dat0 V c).flushed 3 t = ((cfg0.win 3).blk t).view.read (Elt Ideal) (G3 V c) := by
  have h7 : t.val % 8 = 7 := (flush0_3 t).mp hf
  have ht : t.val < 16 := lt_of_lt_of_eq t.isLt (show cfg0.N = 16 from N_0)
  obtain ⟨-, -, -, -, -, -, -, j0, j1, j2⟩ := idx_facts t
  show (cfg0.win 3).cut (grid0.coords t) ((dat0 V c).after 3 t) = _
  rw [after0_3]
  refine funext fun (j : S1x1x128.Idx) => ?_
  obtain ⟨u, u', k, rfl⟩ : ∃ (u : Fin 1) (u' : Fin 1) (k : Fin 128), j = ix3 u u' k := ⟨j 0, j 1, j 2, eq_ix3 j⟩
  obtain rfl : u = 0 := Subsingleton.elim _ _
  obtain rfl : u' = 0 := Subsingleton.elim _ _
  rw [View.read_apply]
  have hemb : ((cfg0.win 3).blk t).view.emb (ix3 (0 : Fin 1) (0 : Fin 1) k) = ix3 (⟨t.val / 8, by omega⟩ : Fin 2) (0 : Fin 1) k :=
    funext fun a => Fin.ext (by
      match a with
      | ⟨0, _⟩ => show win0_3.index t (0 : Fin 3) * 1 + 1 * (0 : Fin 1).val = t.val / 8; rw [j0]; simp
      | ⟨1, _⟩ => show win0_3.index t (1 : Fin 3) * 1 + 1 * (0 : Fin 1).val = (0 : Fin 1).val; rw [j1]; simp
      | ⟨2, _⟩ => show win0_3.index t (2 : Fin 3) * 128 + 1 * k.val = k.val; rw [j2]; omega)
  rw [hemb]
  show ((outsAt0 V c t.val t.isLt).2 : S1x1x128.Idx → EReal) (ix3 0 0 k) = G3 V c (ix3 (⟨t.val / 8, by omega⟩ : Fin 2) (0 : Fin 1) k)
  rw [cnts_point V c t.val t.isLt k, h7, zero_add, Finset.sum_range]
  show ∑ s : Fin 8, add3 V c (8 * (t.val / 8) + s.val) k
    = ∑ s : Fin 8, ∑ r : Fin 2048, sel (lab2 V c (ix2 (row (⟨t.val / 8, by omega⟩ : Fin 2) s r) 0)) k
  refine Finset.sum_congr rfl fun s _ => ?_
  unfold add3
  rw [dif_pos (show 8 * (t.val / 8) + s.val < 16 by omega)]
  refine Finset.sum_congr rfl fun r _ => ?_
  rw [prow_eq (⟨t.val / 8, by omega⟩ : Fin 2) s r _ _ rfl]

/-- An index of the sums array is in point t's block iff each coordinate is in the block's range on its axis. -/
private theorem mem_blk2 (t : Fin cfg0.N) (i : S2x128x512.Idx) :
    i ∈ ((cfg0.win 2).blk t).view.set ↔ ∀ a : Fin 3, win0_2.index t a * S1x128x512.size a ≤ (i a).val
      ∧ (i a).val < win0_2.index t a * S1x128x512.size a + S1x128x512.size a := by
  show i ∈ ((View.whole main_v1_0).slice (win0_2.rect t)).set ↔ _
  rw [View.set_slice_whole, Rect.mem_set_unit]
  exact Iff.rfl

/-- An index of the counts array is in point t's block iff each coordinate is in the block's range on its axis. -/
private theorem mem_blk3 (t : Fin cfg0.N) (i : S2x1x128.Idx) :
    i ∈ ((cfg0.win 3).blk t).view.set ↔ ∀ a : Fin 3, win0_3.index t a * S1x1x128.size a ≤ (i a).val
      ∧ (i a).val < win0_3.index t a * S1x1x128.size a + S1x1x128.size a := by
  show i ∈ ((View.whole main_v1_1).slice (win0_3.rect t)).set ↔ _
  rw [View.set_slice_whole, Rect.mem_set_unit]
  exact Iff.rfl

theorem sums_at (c : Dev nD) (q : Fin 2) (k : Fin 128) (d : Fin 512) :
    ((dat0 V c).arrAt 2 cfg0.N : S2x128x512.Idx → EReal) (ix3 q k d)
      = ∑ s : Fin 8, ∑ r : Fin 2048, sel (lab2 V c (ix2 (row q s r) 0)) k * emb V c (ix2 (row q s r) d) := by
  have hN : cfg0.N = 16 := N_0
  have hq : q.val < 2 := q.isLt
  have hlt : 8 * q.val + 7 < cfg0.N := by rw [hN]; omega
  have hf : (cfg0.win 2).flush ⟨8 * q.val + 7, hlt⟩ = true :=
    (flush0_2 ⟨8 * q.val + 7, hlt⟩).mpr (by show (8 * q.val + 7) % 8 = 7; omega)
  refine ((dat0 V c).arrAt_apply_of_mem 2 (G2 V c) (flushed2 V c) cfg0.N ⟨8 * q.val + 7, hlt⟩ (ix3 q k d) hlt hf ?_).trans rfl
  obtain ⟨-, -, -, -, j0, j1, j2, -⟩ := idx_facts ⟨8 * q.val + 7, hlt⟩
  have j0' : win0_2.index ⟨8 * q.val + 7, hlt⟩ (0 : Fin 3) = q.val := by rw [j0]; show (8 * q.val + 7) / 8 = q.val; omega
  rw [mem_blk2]
  intro a
  match a with
  | ⟨0, _⟩ =>
    show win0_2.index ⟨8 * q.val + 7, hlt⟩ (0 : Fin 3) * 1 ≤ q.val ∧ q.val < win0_2.index ⟨8 * q.val + 7, hlt⟩ (0 : Fin 3) * 1 + 1
    rw [j0']; omega
  | ⟨1, _⟩ =>
    show win0_2.index ⟨8 * q.val + 7, hlt⟩ (1 : Fin 3) * 128 ≤ k.val ∧ k.val < win0_2.index ⟨8 * q.val + 7, hlt⟩ (1 : Fin 3) * 128 + 128
    rw [j1]; omega
  | ⟨2, _⟩ =>
    show win0_2.index ⟨8 * q.val + 7, hlt⟩ (2 : Fin 3) * 512 ≤ d.val ∧ d.val < win0_2.index ⟨8 * q.val + 7, hlt⟩ (2 : Fin 3) * 512 + 512
    rw [j2]; omega

theorem cnts_at (c : Dev nD) (q : Fin 2) (k : Fin 128) :
    ((dat0 V c).arrAt 3 cfg0.N : S2x1x128.Idx → EReal) (ix3 q 0 k)
      = ∑ s : Fin 8, ∑ r : Fin 2048, sel (lab2 V c (ix2 (row q s r) 0)) k := by
  have hN : cfg0.N = 16 := N_0
  have hq : q.val < 2 := q.isLt
  have hlt : 8 * q.val + 7 < cfg0.N := by rw [hN]; omega
  have hf : (cfg0.win 3).flush ⟨8 * q.val + 7, hlt⟩ = true :=
    (flush0_3 ⟨8 * q.val + 7, hlt⟩).mpr (by show (8 * q.val + 7) % 8 = 7; omega)
  refine ((dat0 V c).arrAt_apply_of_mem 3 (G3 V c) (flushed3 V c) cfg0.N ⟨8 * q.val + 7, hlt⟩ (ix3 q 0 k) hlt hf ?_).trans rfl
  obtain ⟨-, -, -, -, -, -, -, j0, j1, j2⟩ := idx_facts ⟨8 * q.val + 7, hlt⟩
  have j0' : win0_3.index ⟨8 * q.val + 7, hlt⟩ (0 : Fin 3) = q.val := by rw [j0]; show (8 * q.val + 7) / 8 = q.val; omega
  rw [mem_blk3]
  intro a
  match a with
  | ⟨0, _⟩ =>
    show win0_3.index ⟨8 * q.val + 7, hlt⟩ (0 : Fin 3) * 1 ≤ q.val ∧ q.val < win0_3.index ⟨8 * q.val + 7, hlt⟩ (0 : Fin 3) * 1 + 1
    rw [j0']; omega
  | ⟨1, _⟩ =>
    show win0_3.index ⟨8 * q.val + 7, hlt⟩ (1 : Fin 3) * 1 ≤ (0 : Fin 1).val ∧ (0 : Fin 1).val < win0_3.index ⟨8 * q.val + 7, hlt⟩ (1 : Fin 3) * 1 + 1
    rw [j1]; simp
  | ⟨2, _⟩ =>
    show win0_3.index ⟨8 * q.val + 7, hlt⟩ (2 : Fin 3) * 128 ≤ k.val ∧ k.val < win0_3.index ⟨8 * q.val + 7, hlt⟩ (2 : Fin 3) * 128 + 128
    rw [j2]; omega

end Cert.KernelIdeal.Stats

end
-- ==== Proof.LossBody.lean ====
/-
  The loss kernel's body as arithmetic on one block of 2048 rows.

  For each row the body forms the one-hot rows of its own label and of its negative label over the 128 classes, reads the
  class sums and counts through them (a product with a one-hot row is the indicator sum `pick`), forms the positive centre
  `(sum − own row) / max (count − 1) 1` and the negative centre `sum / max count 1`, the two Mahalanobis forms
  `√(max (vᵀ C v) 0 + ε)` of the anchor's differences from them, and `max (d⁺ − d⁻ + margin) 0`; the block's 2048 row losses
  are added and the total added to the accumulator the body found. That is `acc + ∑ r, rowLoss …`.
-/
import proofs.«405454_j56848187129916_2_alg».proof.Proof.Gen.KernelIdeal.Skeleton
import proofs.«405454_j56848187129916_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.LossBody

open Idealize.ShloMosaic Idealize.ShloMosaic.ValueIdx
open Cert.KernelIdeal Cert.KernelIdeal.Gen Cert.Triplet

/-! ## Layout operations at explicit coordinates -/

section Layout
variable {α : Type}

/-- A column `[a]` viewed `[a, 1]` reads, at `(i, u)`, the operand at `i`. -/
private theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its rows to `[a, b]` reads, at `(p, c)`, the column at `p`. -/
private theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The one element of a `[1, 1, 1]` array viewed `[1, 1]`. -/
private theorem shapeCast_111_11_apply (x : (⟨3, ![1, 1, 1]⟩ : Shape).Idx → α)
    (h : (⟨3, ![1, 1, 1]⟩ : Shape).ShapeCasts ⟨2, ![1, 1]⟩) :
    shapeCast ⟨2, ![1, 1]⟩ x h (ix2 (0 : Fin 1) (0 : Fin 1)) = x (ix3 (0 : Fin 1) (0 : Fin 1) (0 : Fin 1)) :=
  shapeCast_1ab_ab_apply x h 0 0

/-- The one element of a `[1, 1]` array viewed `[1, 1, 1]`. -/
private theorem shapeCast_11_111_apply (x : (⟨2, ![1, 1]⟩ : Shape).Idx → α)
    (h : (⟨2, ![1, 1]⟩ : Shape).ShapeCasts ⟨3, ![1, 1, 1]⟩) :
    shapeCast ⟨3, ![1, 1, 1]⟩ x h (ix3 (0 : Fin 1) (0 : Fin 1) (0 : Fin 1)) = x (ix2 (0 : Fin 1) (0 : Fin 1)) :=
  shapeCast_ab_1ab_apply x h 0 0 0

/-- The one element of a `[1]` array viewed `[1, 1, 1]`. -/
private theorem shapeCast_1_111_apply (x : (⟨1, ![1]⟩ : Shape).Idx → α)
    (h : (⟨1, ![1]⟩ : Shape).ShapeCasts ⟨3, ![1, 1, 1]⟩) :
    shapeCast ⟨3, ![1, 1, 1]⟩ x h (ix3 (0 : Fin 1) (0 : Fin 1) (0 : Fin 1)) = x (ix1 (0 : Fin 1)) :=
  shapeCast_apply x h _ _ (by
    rw [Shape.rowMajor_val_three, Shape.rowMajor_val_one]
    rfl)

/-- The element a `vector.extract` at position `[0, 0, 0]` reads. -/
private theorem extractAt_000 (x : (⟨3, ![1, 1, 1]⟩ : Shape).Idx → α)
    (h : ∀ a, (![0, 0, 0] : Fin 3 → ℕ) a < (⟨3, ![1, 1, 1]⟩ : Shape).size a) :
    extractAt ![0, 0, 0] x h = x (ix3 (0 : Fin 1) (0 : Fin 1) (0 : Fin 1)) := by
  unfold extractAt
  refine congrArg x (funext fun a => Fin.ext ?_)
  match a with
  | ⟨0, _⟩ => rfl
  | ⟨1, _⟩ => rfl
  | ⟨2, _⟩ => rfl

end Layout

/-- A square root at an index is the square root of the element. -/
private theorem sqrt_apply {s : Shape} {φ : FTy} (a : FVec Ideal s φ) (i : s.Idx) : sqrt a i = Ideal.sqrt (a i) := rfl

/-- An integer comparison at an index compares the elements. -/
private theorem cmpi_apply {s : Shape} {w : ℕ} (p : CmpIPredicate) (a b : IVec s w) (i : s.Idx) :
    cmpi p a b i = IntOp.cmpi p (a i) (b i) := rfl

/-! ## The one-hot blocks of the labels -/

/-- A widened comparison bit, converted, is the indicator of the bit. -/
private theorem bit_toEReal (b : BitVec 1) : (((b.setWidth 32).toInt : ℝ) : EReal) = if b = 1#1 then 1 else 0 := by
  rcases BitVec.eq_zero_or_eq_one b with rfl | rfl
  · have h : (BitVec.setWidth 32 (0#1)).toInt = 0 := by decide
    rw [h, if_neg (by decide)]; simp
  · have h : (BitVec.setWidth 32 (1#1)).toInt = 1 := by decide
    rw [h, if_pos rfl]; simp

/-- The equality comparison's bit is set exactly when the words are equal. -/
private theorem cmpi_eq_one_iff {w : ℕ} (a b : BitVec w) : IntOp.cmpi .eq a b = 1#1 ↔ a = b := by
  have hb : ∀ c : Bool, BitVec.ofBool c = 1#1 ↔ c = true := fun c => by cases c <;> decide
  show BitVec.ofBool (a == b) = 1#1 ↔ a = b
  rw [hb, beq_iff_eq]

/-- The one-hot block of a label column: entry `(r, k)` is the indicator of "row `r`'s label is class `k`". -/
private theorem onehot_apply (x : IVec S2048x1 32) (r : Fin 2048) (k : Fin 128) :
    sitofp (F := Ideal) .f32 (extui 32 (cmpi .eq (broadcastTo S2048x128 (shapeCast S2048x1 x shapeCasts_S2048x1_S2048x1)
      broadcasts_S2048x1_S2048x128) (iota .tc S2048x128 32 [1] iota_S2048x128_d1_w32)) natLt_1_32) (ix2 r k)
      = sel (x (ix2 r 0)) k := by
  rw [sitofp_apply, extui_apply, cmpi_apply, shapeCast_self, iota_single_apply, broadcastTo_a1_ab_apply]
  show ((((IntOp.cmpi .eq (x (ix2 r 0)) (BitVec.ofNat 32 k.val)).setWidth 32).toInt : ℝ) : EReal) = _
  rw [bit_toEReal]
  unfold sel
  by_cases hx : x (ix2 r 0) = BitVec.ofNat 32 k.val
  · rw [if_pos hx, if_pos ((cmpi_eq_one_iff _ _).mpr hx)]
  · rw [if_neg hx, if_neg (fun h => hx ((cmpi_eq_one_iff _ _).mp h))]

/-- The one-hot block of the own labels. -/
private theorem pay3_apply (x : Vec Ideal S2048x1 .i32) (r : Fin 2048) (k : Fin 128) :
    k1_pay3 (F := Ideal) x (ix2 r k) = sel (x (ix2 r 0)) k := by
  unfold k1_pay3
  exact onehot_apply x r k

/-- The one-hot block of the negative labels. -/
private theorem pay4_apply (x : Vec Ideal S2048x1 .i32) (r : Fin 2048) (k : Fin 128) :
    k1_pay4 (F := Ideal) x (ix2 r k) = sel (x (ix2 r 0)) k := by
  unfold k1_pay4
  exact onehot_apply x r k

/-! ## The contractions and the sums at explicit coordinates -/

private theorem lhs128_0 (i : S2048x512.Idx) (q : dot_S2048x128_S128x512_S2048x512_1_0_0_1_n_n.contr.Idx) :
    (dot_S2048x128_S128x512_S2048x512_1_0_0_1_n_n.lhsIdx i q 0).val = (i 0).val := by
  unfold DotDims.lhsIdx
  rw [dif_neg (show ¬(0 : Fin S2048x128.rank) ∈ dot_S2048x128_S128x512_S2048x512_1_0_0_1_n_n.lhsBatch by decide), dif_pos (show (0 : Fin S2048x128.rank) ∈ dot_S2048x128_S128x512_S2048x512_1_0_0_1_n_n.lhsNonContracting by decide)]
  rfl
private theorem lhs128_1 (i : S2048x512.Idx) (q : dot_S2048x128_S128x512_S2048x512_1_0_0_1_n_n.contr.Idx) :
    (dot_S2048x128_S128x512_S2048x512_1_0_0_1_n_n.lhsIdx i q 1).val = (q ⟨0, by decide⟩).val :=
  dot_S2048x128_S128x512_S2048x512_1_0_0_1_n_n.lhsIdx_val_of_single rfl i q
private theorem rhs128_0 (i : S2048x512.Idx) (q : dot_S2048x128_S128x512_S2048x512_1_0_0_1_n_n.contr.Idx) :
    (dot_S2048x128_S128x512_S2048x512_1_0_0_1_n_n.rhsIdx i q 0).val = (q ⟨0, by decide⟩).val :=
  dot_S2048x128_S128x512_S2048x512_1_0_0_1_n_n.rhsIdx_val_of_single rfl i q
private theorem rhs128_1 (i : S2048x512.Idx) (q : dot_S2048x128_S128x512_S2048x512_1_0_0_1_n_n.contr.Idx) :
    (dot_S2048x128_S128x512_S2048x512_1_0_0_1_n_n.rhsIdx i q 1).val = (i 1).val := by
  unfold DotDims.rhsIdx
  rw [dif_neg (show ¬(1 : Fin S128x512.rank) ∈ dot_S2048x128_S128x512_S2048x512_1_0_0_1_n_n.rhsBatch by decide), dif_pos (show (1 : Fin S128x512.rank) ∈ dot_S2048x128_S128x512_S2048x512_1_0_0_1_n_n.rhsNonContracting by decide)]
  rfl

/-- The product into a zero accumulator, read at `(r, d)`: the sum over the contracted coordinate. -/
private theorem matmul128_apply (lhs : FVec Ideal S2048x128 .f32) (rhs : FVec Ideal S128x512 .f32) (r : Fin 2048) (d : Fin 512) :
    matmul dot_S2048x128_S128x512_S2048x512_1_0_0_1_n_n (some .fp32) lhs rhs (constant (F := Ideal) S2048x512 .f32 0x00000000#32) (ix2 r d)
      = ∑ k : Fin 128, lhs (ix2 r k) * rhs (ix2 k d) := by
  simp only [matmul]
  rw [Ideal.matmul_constant_zero_apply, ← Equiv.sum_comp (contrEquiv1 dot_S2048x128_S128x512_S2048x512_1_0_0_1_n_n 128 rfl rfl).symm]
  refine Finset.sum_congr rfl fun k _ => ?_
  have hk := contrEquiv1_symm_val dot_S2048x128_S128x512_S2048x512_1_0_0_1_n_n 128 rfl rfl k
  have el : dot_S2048x128_S128x512_S2048x512_1_0_0_1_n_n.lhsIdx (ix2 r d) ((contrEquiv1 dot_S2048x128_S128x512_S2048x512_1_0_0_1_n_n 128 rfl rfl).symm k) = ix2 r k := funext fun a => Fin.ext (by
    match a with
    | ⟨0, _⟩ => exact lhs128_0 _ _
    | ⟨1, _⟩ => exact (lhs128_1 _ _).trans hk)
  have er : dot_S2048x128_S128x512_S2048x512_1_0_0_1_n_n.rhsIdx (ix2 r d) ((contrEquiv1 dot_S2048x128_S128x512_S2048x512_1_0_0_1_n_n 128 rfl rfl).symm k) = ix2 k d := funext fun a => Fin.ext (by
    match a with
    | ⟨0, _⟩ => exact (rhs128_0 _ _).trans hk
    | ⟨1, _⟩ => exact rhs128_1 _ _)
  rw [el, er]

private theorem lhs512_0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
private theorem lhs512_1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
private theorem rhs512_0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
private theorem rhs512_1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- The product into a zero accumulator, read at `(r, d)`: the sum over the contracted coordinate. -/
private theorem matmul512_apply (lhs : FVec Ideal S2048x512 .f32) (rhs : FVec Ideal S512x512 .f32) (r : Fin 2048) (d : Fin 512) :
    matmul dot_S2048x512_S512x512_S2048x512_1_0_0_1_n_n (some .fp32) lhs rhs (constant (F := Ideal) S2048x512 .f32 0x00000000#32) (ix2 r d)
      = ∑ k : Fin 512, lhs (ix2 r k) * rhs (ix2 k d) := by
  simp only [matmul]
  rw [Ideal.matmul_constant_zero_apply, ← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 r d) ((contrEquiv1 dot_S2048x512_S512x512_S2048x512_1_0_0_1_n_n 512 rfl rfl).symm k) = ix2 r k := funext fun a => Fin.ext (by
    match a with
    | ⟨0, _⟩ => exact lhs512_0 _ _
    | ⟨1, _⟩ => exact (lhs512_1 _ _).trans hk)
  have er : dot_S2048x512_S512x512_S2048x512_1_0_0_1_n_n.rhsIdx (ix2 r d) ((contrEquiv1 dot_S2048x512_S512x512_S2048x512_1_0_0_1_n_n 512 rfl rfl).symm k) = ix2 k d := funext fun a => Fin.ext (by
    match a with
    | ⟨0, _⟩ => exact (rhs512_0 _ _).trans hk
    | ⟨1, _⟩ => exact rhs512_1 _ _)
  rw [el, er]

/-- A sum along the lanes of a `[2048, b]` block, read at row `r`: the sum of the row's entries. -/
private theorem rowsum_apply {b : ℕ} (src : FVec Ideal ⟨2, ![2048, b]⟩ .f32) (h : (⟨2, ![2048, b]⟩ : Shape).Reduces [1] S2048)
    (hφ : FKind.Formats .f32) (hacc : (0x00000000#32 : BitVec 32) = 0x00000000#32) (r : Fin 2048) :
    multiReduction .add [1] S2048 src 0x00000000#32 h hφ hacc (ix1 r) = ∑ k : Fin b, src (ix2 r k) := by
  refine (Ideal.multiReduction_add_single src 0x00000000#32 h hφ hacc (ix1 r)).trans ?_
  show ∑ k : Fin b, src (h.lift (ix1 r) k) = _
  refine Finset.sum_congr rfl fun k _ => congrArg src (funext fun a => Fin.ext ?_)
  match a with
  | ⟨0, _⟩ => rfl
  | ⟨1, _⟩ => rfl

/-- The rows of a `[1, 2048, 1]` array, one index each. -/
private def rowEquiv : Fin 2048 ≃ S1x2048x1.Idx where
  toFun r := ix3 (0 : Fin 1) r (0 : Fin 1)
  invFun i := i 1
  left_inv _ := rfl
  right_inv i := by
    obtain ⟨u, r, w, rfl⟩ : ∃ (u : Fin 1) (r : Fin 2048) (w : Fin 1), i = ix3 u r w := ⟨i 0, i 1, i 2, eq_ix3 i⟩
    have hu : u = 0 := Subsingleton.elim _ _
    have hw : w = 0 := Subsingleton.elim _ _
    subst hu hw; rfl

/-- A sum over both trailing axes of a `[1, 2048, 1]` array: the sum over its 2048 rows. -/
private theorem total_apply (src : FVec Ideal S1x2048x1 .f32) (h : S1x2048x1.Reduces [1, 2] S1)
    (hφ : FKind.Formats .f32) (hacc : (0x00000000#32 : BitVec 32) = 0x00000000#32) :
    multiReduction .add [1, 2] S1 src 0x00000000#32 h hφ hacc (ix1 (0 : Fin 1))
      = ∑ r : Fin 2048, src (ix3 (0 : Fin 1) r (0 : Fin 1)) := by
  refine (Ideal.multiReduction_add_total src 0x00000000#32 h (fun b => ?_) hφ hacc _).trans ?_
  · match b with
    | ⟨0, _⟩ => rfl
  · exact (Equiv.sum_comp rowEquiv src).symm

/-! ## The tables read at the labels -/

/-- The own class's sum less the row itself: the indicator sum over the classes, minus the embedding row. -/
private theorem pay9_apply (xl : Vec Ideal S2048x1 .i32) (xs : Vec Ideal S128x512 .f32) (xe : Vec Ideal S2048x512 .f32)
    (r : Fin 2048) (d : Fin 512) :
    k1_pay9 (F := Ideal) xl xs xe (ix2 r d) = pick (xl (ix2 r 0)) (fun k => xs (ix2 k d)) - xe (ix2 r d) := by
  unfold k1_pay9 k1_pay5
  rw [subf_apply, matmul128_apply]
  simp only [shapeCast_self, pay3_apply]
  rfl

/-- The own class's count less one, at least one. -/
private theorem pay10_apply (xl : Vec Ideal S2048x1 .i32) (xc : Vec Ideal S1x128 .f32) (r : Fin 2048) :
    k1_pay10 (F := Ideal) xl xc (ix2 r 0) = max (pick (xl (ix2 r 0)) (fun k => xc (ix2 0 k)) - one) one := by
  unfold k1_pay10 k1_pay6
  rw [maximumf_apply, subf_apply, broadcast_apply, shapeCast_a_a1_apply, rowsum_apply]
  simp only [mulf_apply, pay3_apply, broadcastTo_1b_ab_apply, shapeCast_self]
  rfl

/-- The negative class's sum: the indicator sum over the classes. -/
private theorem pay7_apply (xn : Vec Ideal S2048x1 .i32) (xs : Vec Ideal S128x512 .f32) (r : Fin 2048) (d : Fin 512) :
    k1_pay7 (F := Ideal) xn xs (ix2 r d) = pick (xn (ix2 r 0)) (fun k => xs (ix2 k d)) := by
  unfold k1_pay7 k1_pay5
  rw [matmul128_apply]
  simp only [shapeCast_self, pay4_apply]
  rfl

/-- The negative class's count. -/
private theorem pay8_apply (xn : Vec Ideal S2048x1 .i32) (xc : Vec Ideal S1x128 .f32) (r : Fin 2048) :
    k1_pay8 (F := Ideal) xn xc (ix2 r 0) = pick (xn (ix2 r 0)) (fun k => xc (ix2 0 k)) := by
  unfold k1_pay8 k1_pay6
  rw [shapeCast_a_a1_apply, rowsum_apply]
  simp only [mulf_apply, pay4_apply, broadcastTo_1b_ab_apply, shapeCast_self]
  rfl

/-! ## The distances and the block's sum -/

/-- The quadratic form of row `r` of a difference block `v` with the matrix `C`, as the column it is kept in. -/
private theorem quad_apply (v : FVec Ideal S2048x512 .f32) (C : FVec Ideal S512x512 .f32)
    (hφ : FKind.Formats .f32) (hacc : (0x00000000#32 : BitVec 32) = 0x00000000#32) (r : Fin 2048) :
    shapeCast S2048x1 (multiReduction .add [1] S2048
        (mulf (matmul dot_S2048x512_S512x512_S2048x512_1_0_0_1_n_n (some .fp32) v C
          (constant (F := Ideal) S2048x512 .f32 0x00000000#32)) v)
        0x00000000#32 reduces_S2048x512_S2048 hφ hacc) shapeCasts_S2048_S2048x1 (ix2 r (0 : Fin 1))
      = ∑ d : Fin 512, (∑ j : Fin 512, v (ix2 r j) * C (ix2 j d)) * v (ix2 r d) := by
  rw [shapeCast_a_a1_apply, rowsum_apply]
  simp only [mulf_apply, matmul512_apply]

/-- The accumulator plus the block's 2048 row losses, from the two centre numerators and denominators. -/
private theorem pay11_apply (v21 : FVec Ideal S2048x512 .f32) (v29 : FVec Ideal S2048x1 .f32) (v31 : Vec Ideal S2048x512 .f32)
    (v32 : FVec Ideal S2048x512 .f32) (v36 : FVec Ideal S2048x1 .f32) (v45 : Vec Ideal S512x512 .f32)
    (v69 : Vec Ideal S1x1x1 .f32) :
    k1_pay11 (F := Ideal) v21 v29 v31 v32 v36 v45 v69 (ix2 0 0) = v69 (ix3 0 0 0) + ∑ r : Fin 2048,
      max (dist (fun j d => v45 (ix2 j d)) (fun d => v31 (ix2 r d) - Ideal.div (v32 (ix2 r d)) (v36 (ix2 r 0)))
          - dist (fun j d => v45 (ix2 j d)) (fun d => v31 (ix2 r d) - Ideal.div (v21 (ix2 r d)) (max (v29 (ix2 r 0)) one))
          + margin) zero := by
  unfold k1_pay11
  rw [addf_apply, shapeCast_111_11_apply, broadcast_apply, extractAt_000, shapeCast_1_111_apply, total_apply]
  refine congrArg (v69 (ix3 0 0 0) + ·) (Finset.sum_congr rfl fun r _ => ?_)
  rw [shapeCast_ab_1ab_apply]
  simp only [maximumf_apply, addf_apply, subf_apply, sqrt_apply, broadcast_apply]
  rw [quad_apply, quad_apply]
  simp only [maximumf_apply, subf_apply, broadcast_apply, divf_apply, broadcastTo_a1_ab_apply]
  rfl

/-- What the loss kernel's body stores at a step that clears the accumulator first: zero. -/
theorem reset_value : k1_pay2 (F := Ideal) (ix3 0 0 0) = 0 := by
  unfold k1_pay2
  rw [shapeCast_11_111_apply, broadcast_apply]
  exact Ideal.ofBits_zero_f32

/-- What the loss kernel's body stores: the accumulator it found plus the sum of the block's 2048 row losses, from the
    anchor block `xa`, the embedding block `xe`, the label columns `xl` and `xn`, the class sums `xs`, the class counts
    `xc` and the inverse covariance `xv`. -/
theorem body_value (xa xe : Vec Ideal S2048x512 .f32) (xl xn : Vec Ideal S2048x1 .i32) (xs : Vec Ideal S128x512 .f32)
    (xc : Vec Ideal S1x128 .f32) (xv : Vec Ideal S512x512 .f32) (acc : Vec Ideal S1x1x1 .f32) :
    k1_pay1 (F := Ideal) (k1_pay11 (k1_pay7 xn xs) (k1_pay8 xn xc) xa (k1_pay9 xl xs xe) (k1_pay10 xl xc) xv acc) (ix3 0 0 0)
      = acc (ix3 0 0 0) + ∑ r : Fin 2048,
          rowLoss (fun k d => xs (ix2 k d)) (fun k => xc (ix2 0 k)) (fun j d => xv (ix2 j d))
            (xl (ix2 r 0)) (xn (ix2 r 0)) (fun d => xa (ix2 r d)) (fun d => xe (ix2 r d)) := by
  unfold k1_pay1
  rw [shapeCast_11_111_apply, pay11_apply]
  refine congrArg (acc (ix3 0 0 0) + ·) (Finset.sum_congr rfl fun r _ => ?_)
  unfold rowLoss
  simp only [pay7_apply, pay8_apply, pay9_apply, pay10_apply]

end Cert.KernelIdeal.LossBody

end
-- ==== Proof.LossRegion.lean ====
/-
  The value of the loss region.

  The region walks the batch as 2 halves of 8 steps of 2048 rows; the class sums, the class counts and the inverse covariance
  are whole at every step. At step `s` of half `q` the body adds the sum of the step's 2048 row losses to the half's one-entry
  accumulator, which the first step of a half clears first. So after a half's last step the accumulator holds the sum of the
  row losses over the half's 8 · 2048 rows, and that is what is written back to entry `q` of the output.
-/
import proofs.«405454_j56848187129916_2_alg».proof.Proof.Gen.KernelIdeal.Frame
import proofs.«405454_j56848187129916_2_alg».proof.Proof.Spec
import proofs.«405454_j56848187129916_2_alg».proof.Proof.LossBody
import Idealize.ShloMosaic.Lib.Pipeline.Value
import Idealize.ShloMosaic.Lib.ValueIdx
import Idealize.ShloMosaic.PureOps.Ideal.Laws

set_option maxRecDepth 16384

noncomputable section

namespace Cert.KernelIdeal.LossRegion

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Triplet

variable (V : (c : Dev nD) → (b : Ref sig .tc) → Buf (Elt Ideal) ((c : Thread nD τ).loc b))

/-- The loss region's seven input arrays as it finds them: anchor, embeddings, the two label columns, the class sums,
    the class counts (one row), the inverse covariance. -/
abbrev anc (c : Dev nD) : Vec Ideal S32768x512 .f32 := V c main_arg0
abbrev emb (c : Dev nD) : Vec Ideal S32768x512 .f32 := V c main_arg1
abbrev lab (c : Dev nD) : Vec Ideal S32768x1 .i32 := V c main_v4
abbrev neg (c : Dev nD) : Vec Ideal S32768x1 .i32 := V c main_v5
abbrev sums (c : Dev nD) : Vec Ideal S128x512 .f32 := V c main_v2
abbrev cnts (c : Dev nD) : Vec Ideal S1x128 .f32 := V c main_v3
abbrev cov (c : Dev nD) : Vec Ideal S512x512 .f32 := V c main_arg2

private theorem hz3 : (![0, 0, 0] : Fin 3 → Nat) = fun _ => 0 := funext fun a => by fin_cases a <;> rfl
private theorem hz2 : (![0, 0] : Fin 2 → Nat) = fun _ => 0 := funext fun a => by fin_cases a <;> rfl

section Pieces

variable {F : FTy → Type} [FloatOps F]

/-- What the body leaves in the accumulator block at a step that does not clear it: the one covering store's payload,
    over the blocks as loaded and the accumulator as found. -/
private theorem out_B (c : Dev nD) (i : grid1.Coords) (a2 : Memref sig .tc .vmem S2048x512 .f32) (h2 : a2.IsWhole) (a3 : Memref sig .tc .vmem S2048x512 .f32) (h3 : a3.IsWhole) (a4 : Memref sig .tc .vmem S2048x1 .i32) (h4 : a4.IsWhole) (a5 : Memref sig .tc .vmem S2048x1 .i32) (h5 : a5.IsWhole) (a6 : Memref sig .tc .vmem S128x512 .f32) (h6 : a6.IsWhole) (a7 : Memref sig .tc .vmem S1x128 .f32) (h7 : a7.IsWhole) (a8 : Memref sig .tc .vmem S512x512 .f32) (h8 : a8.IsWhole) (a9 : Memref sig .tc .vmem S1x1x1 .f32) (h9 : a9.IsWhole) (hc : ¬cond1_0 i) (x0 x1 : Vec F S2048x512 .f32) (x2 x3 : Vec F S2048x1 .i32) (x4 : Vec F S128x512 .f32) (x5 : Vec F S1x128 .f32) (x6 : Vec F S512x512 .f32) (xo : Vec F S1x1x1 .f32) :
    out1_B_7 c i a2 h2 a3 h3 a4 h4 a5 h5 a6 h6 a7 h7 a8 h8 a9 h9 hc x0 x1 x2 x3 x4 x5 x6 xo
      = k1_pay1 (k1_pay11 (k1_pay7 x3 x4) (k1_pay8 x3 x5) x0 (k1_pay9 x2 x4 x1) (k1_pay10 x2 x5) x6 xo) := by
  unfold out1_B_7
  rw [View.read_writes_eq_canon _ _ _ (cover1_B_7 c i a2 h2 a3 h3 a4 h4 a5 h5 a6 h6 a7 h7 a8 h8 a9 h9 hc x0 x1 x2 x3 x4 x5 x6 xo)]
  unfold kernelRun1_B
  dsimp only
  sl_unfold_words
  rw [View.canon_unit_zero hz3]
  simp only [View.readAt_eq_ld, h2.read_unread, h3.read_unread, h4.read_unread, h5.read_unread, h6.read_unread, h7.read_unread, h8.read_unread, h9.read_unread,
    View.ld_unit_zero (S := S2048x512) hz2, View.ld_unit_zero (S := S2048x1) hz2, View.ld_unit_zero (S := S128x512) hz2, View.ld_unit_zero (S := S1x128) hz2, View.ld_unit_zero (S := S512x512) hz2, View.ld_unit_zero (S := S1x1x1) hz3]

/-- What the body leaves there at a step that clears it first: the same payload over the cleared accumulator. -/
private theorem out_A (c : Dev nD) (i : grid1.Coords) (a2 : Memref sig .tc .vmem S2048x512 .f32) (h2 : a2.IsWhole) (a3 : Memref sig .tc .vmem S2048x512 .f32) (h3 : a3.IsWhole) (a4 : Memref sig .tc .vmem S2048x1 .i32) (h4 : a4.IsWhole) (a5 : Memref sig .tc .vmem S2048x1 .i32) (h5 : a5.IsWhole) (a6 : Memref sig .tc .vmem S128x512 .f32) (h6 : a6.IsWhole) (a7 : Memref sig .tc .vmem S1x128 .f32) (h7 : a7.IsWhole) (a8 : Memref sig .tc .vmem S512x512 .f32) (h8 : a8.IsWhole) (a9 : Memref sig .tc .vmem S1x1x1 .f32) (h9 : a9.IsWhole) (hc : cond1_0 i) (x0 x1 : Vec F S2048x512 .f32) (x2 x3 : Vec F S2048x1 .i32) (x4 : Vec F S128x512 .f32) (x5 : Vec F S1x128 .f32) (x6 : Vec F S512x512 .f32) :
    out1_A_7 c i a2 h2 a3 h3 a4 h4 a5 h5 a6 h6 a7 h7 a8 h8 a9 h9 hc x0 x1 x2 x3 x4 x5 x6
      = k1_pay1 (k1_pay11 (k1_pay7 x3 x4) (k1_pay8 x3 x5) x0 (k1_pay9 x2 x4 x1) (k1_pay10 x2 x5) x6 k1_pay2) := by
  unfold out1_A_7
  rw [View.read_writes_eq_canon _ _ _ (cover1_A_7 c i a2 h2 a3 h3 a4 h4 a5 h5 a6 h6 a7 h7 a8 h8 a9 h9 hc x0 x1 x2 x3 x4 x5 x6)]
  unfold kernelRun1_A
  dsimp only
  sl_unfold_words
  rw [View.canon_cons_unit_zero (S := S1x1x1) hz3, View.readCov_unit_zero (S := S1x1x1) _ hz3]
  simp only [View.readAt_eq_ld, h2.read_unread, h3.read_unread, h4.read_unread, h5.read_unread, h6.read_unread, h7.read_unread, h8.read_unread, h9.read_unread,
    View.ld_unit_zero (S := S2048x512) hz2, View.ld_unit_zero (S := S2048x1) hz2, View.ld_unit_zero (S := S128x512) hz2, View.ld_unit_zero (S := S1x128) hz2, View.ld_unit_zero (S := S512x512) hz2, View.ld_unit_zero (S := S1x1x1) hz3]

end Pieces

/-! ## One step's value -/

/-- The sum of the 2048 row losses of one step, from the step's blocks and the three whole tables. -/
private def stepSum (xa xe : Vec Ideal S2048x512 .f32) (xl xn : Vec Ideal S2048x1 .i32) (xs : Vec Ideal S128x512 .f32)
    (xc : Vec Ideal S1x128 .f32) (xv : Vec Ideal S512x512 .f32) : EReal :=
  ∑ r : Fin 2048, rowLoss (fun k d => xs (ix2 k d)) (fun k => xc (ix2 0 k)) (fun j d => xv (ix2 j d))
    (xl (ix2 r 0)) (xn (ix2 r 0)) (fun d => xa (ix2 r d)) (fun d => xe (ix2 r d))

/-- A step that does not clear the accumulator leaves what it found plus the step's sum. -/
private theorem val_B (c : Dev nD) (i : grid1.Coords) (a2 : Memref sig .tc .vmem S2048x512 .f32) (h2 : a2.IsWhole) (a3 : Memref sig .tc .vmem S2048x512 .f32) (h3 : a3.IsWhole) (a4 : Memref sig .tc .vmem S2048x1 .i32) (h4 : a4.IsWhole) (a5 : Memref sig .tc .vmem S2048x1 .i32) (h5 : a5.IsWhole) (a6 : Memref sig .tc .vmem S128x512 .f32) (h6 : a6.IsWhole) (a7 : Memref sig .tc .vmem S1x128 .f32) (h7 : a7.IsWhole) (a8 : Memref sig .tc .vmem S512x512 .f32) (h8 : a8.IsWhole) (a9 : Memref sig .tc .vmem S1x1x1 .f32) (h9 : a9.IsWhole) (hc : ¬cond1_0 i)
    (x0 x1 : Vec Ideal S2048x512 .f32) (x2 x3 : Vec Ideal S2048x1 .i32) (x4 : Vec Ideal S128x512 .f32)
    (x5 : Vec Ideal S1x128 .f32) (x6 : Vec Ideal S512x512 .f32) (xo : Vec Ideal S1x1x1 .f32) :
    out1_B_7 (F := Ideal) c i a2 h2 a3 h3 a4 h4 a5 h5 a6 h6 a7 h7 a8 h8 a9 h9 hc x0 x1 x2 x3 x4 x5 x6 xo (ix3 0 0 0)
      = xo (ix3 0 0 0) + stepSum x0 x1 x2 x3 x4 x5 x6 :=
  (congrFun (out_B (F := Ideal) c i a2 h2 a3 h3 a4 h4 a5 h5 a6 h6 a7 h7 a8 h8 a9 h9 hc x0 x1 x2 x3 x4 x5 x6 xo) (ix3 0 0 0)).trans
    (LossBody.body_value x0 x1 x2 x3 x4 x5 x6 xo)

/-- A step that clears it first leaves the step's sum. -/
private theorem val_A (c : Dev nD) (i : grid1.Coords) (a2 : Memref sig .tc .vmem S2048x512 .f32) (h2 : a2.IsWhole) (a3 : Memref sig .tc .vmem S2048x512 .f32) (h3 : a3.IsWhole) (a4 : Memref sig .tc .vmem S2048x1 .i32) (h4 : a4.IsWhole) (a5 : Memref sig .tc .vmem S2048x1 .i32) (h5 : a5.IsWhole) (a6 : Memref sig .tc .vmem S128x512 .f32) (h6 : a6.IsWhole) (a7 : Memref sig .tc .vmem S1x128 .f32) (h7 : a7.IsWhole) (a8 : Memref sig .tc .vmem S512x512 .f32) (h8 : a8.IsWhole) (a9 : Memref sig .tc .vmem S1x1x1 .f32) (h9 : a9.IsWhole) (hc : cond1_0 i)
    (x0 x1 : Vec Ideal S2048x512 .f32) (x2 x3 : Vec Ideal S2048x1 .i32) (x4 : Vec Ideal S128x512 .f32)
    (x5 : Vec Ideal S1x128 .f32) (x6 : Vec Ideal S512x512 .f32) :
    out1_A_7 (F := Ideal) c i a2 h2 a3 h3 a4 h4 a5 h5 a6 h6 a7 h7 a8 h8 a9 h9 hc x0 x1 x2 x3 x4 x5 x6 (ix3 0 0 0) = stepSum x0 x1 x2 x3 x4 x5 x6 := by
  refine (congrFun (out_A (F := Ideal) c i a2 h2 a3 h3 a4 h4 a5 h5 a6 h6 a7 h7 a8 h8 a9 h9 hc x0 x1 x2 x3 x4 x5 x6) (ix3 0 0 0)).trans ?_
  refine (LossBody.body_value x0 x1 x2 x3 x4 x5 x6 (k1_pay2 (F := Ideal))).trans ?_
  rw [LossBody.reset_value, zero_add]
  rfl

/-! ## The blocks, read off the arrays

A block's entry sits in its array, on each axis, at the block index times the block's size plus the entry's own
coordinate. The four row-blocked windows have block index (t, 0) at point t; the three tables are one block. -/

private theorem index0 : ∀ t : Fin grid1.N, win1_0.index t 0 = t.val ∧ win1_0.index t 1 = 0 := by decide +kernel
private theorem index1 : ∀ t : Fin grid1.N, win1_1.index t 0 = t.val ∧ win1_1.index t 1 = 0 := by decide +kernel
private theorem index2 : ∀ t : Fin grid1.N, win1_2.index t 0 = t.val ∧ win1_2.index t 1 = 0 := by decide +kernel
private theorem index3 : ∀ t : Fin grid1.N, win1_3.index t 0 = t.val ∧ win1_3.index t 1 = 0 := by decide +kernel
private theorem index4 : ∀ t : Fin grid1.N, win1_4.index t 0 = 0 ∧ win1_4.index t 1 = 0 := by decide +kernel
private theorem index5 : ∀ t : Fin grid1.N, win1_5.index t 0 = 0 ∧ win1_5.index t 1 = 0 := by decide +kernel
private theorem index6 : ∀ t : Fin grid1.N, win1_6.index t 0 = 0 ∧ win1_6.index t 1 = 0 := by decide +kernel
private theorem index7 : ∀ t : Fin grid1.N, win1_7.index t 0 = t.val / 8 ∧ win1_7.index t 1 = 0 ∧ win1_7.index t 2 = 0 := by
  decide +kernel

private theorem blk0_apply (c : Dev nD) (t : Fin cfg1.N) (r : Fin 2048) (d : Fin 512) (b : Fin 32768)
    (hb : b.val = t.val * 2048 + r.val) :
    (iblk1 V c 0 t : Vec Ideal S2048x512 .f32) (ix2 r d) = anc V c (ix2 b d) := by
  unfold iblk1
  rw [View.read_apply]
  show V c main_arg0 _ = V c main_arg0 _
  congr 1
  funext a
  apply Fin.ext
  match a with
  | ⟨0, _⟩ => show win1_0.index t 0 * 2048 + 1 * r.val = b.val; rw [(index0 t).1, hb]; omega
  | ⟨1, _⟩ => show win1_0.index t 1 * 512 + 1 * d.val = d.val; rw [(index0 t).2]; omega

private theorem blk1_apply (c : Dev nD) (t : Fin cfg1.N) (r : Fin 2048) (d : Fin 512) (b : Fin 32768)
    (hb : b.val = t.val * 2048 + r.val) :
    (iblk1 V c 1 t : Vec Ideal S2048x512 .f32) (ix2 r d) = emb V c (ix2 b d) := by
  unfold iblk1
  rw [View.read_apply]
  show V c main_arg1 _ = V c main_arg1 _
  congr 1
  funext a
  apply Fin.ext
  match a with
  | ⟨0, _⟩ => show win1_1.index t 0 * 2048 + 1 * r.val = b.val; rw [(index1 t).1, hb]; omega
  | ⟨1, _⟩ => show win1_1.index t 1 * 512 + 1 * d.val = d.val; rw [(index1 t).2]; omega

private theorem blk2_apply (c : Dev nD) (t : Fin cfg1.N) (r : Fin 2048) (d : Fin 1) (b : Fin 32768)
    (hb : b.val = t.val * 2048 + r.val) :
    (iblk1 V c 2 t : Vec Ideal S2048x1 .i32) (ix2 r d) = lab V c (ix2 b d) := by
  unfold iblk1
  rw [View.read_apply]
  show V c main_v4 _ = V c main_v4 _
  congr 1
  funext a
  apply Fin.ext
  match a with
  | ⟨0, _⟩ => show win1_2.index t 0 * 2048 + 1 * r.val = b.val; rw [(index2 t).1, hb]; omega
  | ⟨1, _⟩ => show win1_2.index t 1 * 1 + 1 * d.val = d.val; rw [(index2 t).2]; omega

private theorem blk3_apply (c : Dev nD) (t : Fin cfg1.N) (r : Fin 2048) (d : Fin 1) (b : Fin 32768)
    (hb : b.val = t.val * 2048 + r.val) :
    (iblk1 V c 3 t : Vec Ideal S2048x1 .i32) (ix2 r d) = neg V c (ix2 b d) := by
  unfold iblk1
  rw [View.read_apply]
  show V c main_v5 _ = V c main_v5 _
  congr 1
  funext a
  apply Fin.ext
  match a with
  | ⟨0, _⟩ => show win1_3.index t 0 * 2048 + 1 * r.val = b.val; rw [(index3 t).1, hb]; omega
  | ⟨1, _⟩ => show win1_3.index t 1 * 1 + 1 * d.val = d.val; rw [(index3 t).2]; omega

private theorem blk4_eq (c : Dev nD) (t : Fin cfg1.N) : (iblk1 V c 4 t : Vec Ideal S128x512 .f32) = sums V c := by
  funext j
  unfold iblk1
  rw [View.read_apply]
  show V c main_v2 _ = V c main_v2 _
  congr 1
  funext a
  apply Fin.ext
  match a with
  | ⟨0, _⟩ => show win1_4.index t 0 * 128 + 1 * (j 0).val = (j 0).val; rw [(index4 t).1]; omega
  | ⟨1, _⟩ => show win1_4.index t 1 * 512 + 1 * (j 1).val = (j 1).val; rw [(index4 t).2]; omega

private theorem blk5_eq (c : Dev nD) (t : Fin cfg1.N) : (iblk1 V c 5 t : Vec Ideal S1x128 .f32) = cnts V c := by
  funext j
  unfold iblk1
  rw [View.read_apply]
  show V c main_v3 _ = V c main_v3 _
  congr 1
  funext a
  apply Fin.ext
  match a with
  | ⟨0, _⟩ => show win1_5.index t 0 * 1 + 1 * (j 0).val = (j 0).val; rw [(index5 t).1]; omega
  | ⟨1, _⟩ => show win1_5.index t 1 * 128 + 1 * (j 1).val = (j 1).val; rw [(index5 t).2]; omega

private theorem blk6_eq (c : Dev nD) (t : Fin cfg1.N) : (iblk1 V c 6 t : Vec Ideal S512x512 .f32) = cov V c := by
  funext j
  unfold iblk1
  rw [View.read_apply]
  show V c main_arg2 _ = V c main_arg2 _
  congr 1
  funext a
  apply Fin.ext
  match a with
  | ⟨0, _⟩ => show win1_6.index t 0 * 512 + 1 * (j 0).val = (j 0).val; rw [(index6 t).1]; omega
  | ⟨1, _⟩ => show win1_6.index t 1 * 512 + 1 * (j 1).val = (j 1).val; rw [(index6 t).2]; omega

/-! ## The accumulator after each point -/

/-- The step's sum at point `t`, from the blocks the windows hold there. -/
private def stepAt (c : Dev nD) (t : Fin cfg1.N) : EReal :=
  stepSum (iblk1 V c 0 t) (iblk1 V c 1 t) (iblk1 V c 2 t) (iblk1 V c 3 t) (iblk1 V c 4 t) (iblk1 V c 5 t) (iblk1 V c 6 t)

/-- At point `t = 8q + s` the blocks are rows `(q, s, ·)` of the batch arrays and the tables whole, so the step's sum is
    the sum of those rows' losses. -/
private theorem stepAt_eq (c : Dev nD) (t : Fin cfg1.N) (q : Fin 2) (s : Fin 8) (ht : t.val = 8 * q.val + s.val) :
    stepAt V c t = ∑ r : Fin 2048,
      rowLoss (fun k d => sums V c (ix2 k d)) (fun k => cnts V c (ix2 0 k)) (fun j d => cov V c (ix2 j d))
        (lab V c (ix2 (row q s r) 0)) (neg V c (ix2 (row q s r) 0))
        (fun d => anc V c (ix2 (row q s r) d)) (fun d => emb V c (ix2 (row q s r) d)) := by
  unfold stepAt stepSum
  rw [blk4_eq V c t, blk5_eq V c t, blk6_eq V c t]
  refine Finset.sum_congr rfl fun r _ => ?_
  have hb : (row q s r).val = t.val * 2048 + r.val := by
    show (q.val * 8 + s.val) * 2048 + r.val = t.val * 2048 + r.val
    rw [ht]; omega
  exact congr (congr (congr (congrArg (rowLoss _ _ _) (blk2_apply V c t r 0 (row q s r) hb))
    (blk3_apply V c t r 0 (row q s r) hb))
    (funext fun d => blk0_apply V c t r d (row q s r) hb))
    (funext fun d => blk1_apply V c t r d (row q s r) hb)

/-- At a point that clears the accumulator, it is left at the step's sum. -/
private theorem outsAt_A (c : Dev nD) (t : Fin cfg1.N) (h0 : t.val % 8 = 0) :
    outsAt1 V c t.val t.isLt (ix3 0 0 0) = stepAt V c t :=
  (congrFun (outsAt1_A V c t h0) (ix3 0 0 0)).trans
    (val_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (iblk1 V c 0 t) (iblk1 V c 1 t) (iblk1 V c 2 t) (iblk1 V c 3 t) (iblk1 V c 4 t) (iblk1 V c 5 t) (iblk1 V c 6 t))

/-- At any other point, at what the point before left plus the step's sum. -/
private theorem outsAt_B (c : Dev nD) (t : Fin cfg1.N) (h0 : ¬t.val % 8 = 0) :
    outsAt1 V c t.val t.isLt (ix3 0 0 0)
      = outsAt1 V c (t.val - 1) (Nat.lt_of_le_of_lt (Nat.sub_le _ _) t.isLt) (ix3 0 0 0) + stepAt V c t :=
  (congrFun (outsAt1_B V c t h0) (ix3 0 0 0)).trans
    (val_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (iblk1 V c 0 t) (iblk1 V c 1 t) (iblk1 V c 2 t) (iblk1 V c 3 t) (iblk1 V c 4 t) (iblk1 V c 5 t) (iblk1 V c 6 t)
      (outsAt1 V c (t.val - 1) (Nat.lt_of_le_of_lt (Nat.sub_le _ _) t.isLt)))

/-- Point `n`'s step sum, as a function of every natural (zero past the grid). -/
private def stepN (c : Dev nD) (n : ℕ) : EReal := if h : n < cfg1.N then stepAt V c ⟨n, h⟩ else 0

/-- After point `n` the accumulator holds the step sums of the points of `n`'s run of eight, up to `n`. -/
private theorem fold_eq (c : Dev nD) : ∀ (n : ℕ) (h : n < cfg1.N),
    outsAt1 V c n h (ix3 0 0 0) = ∑ j ∈ Finset.range (n % 8 + 1), stepN V c (8 * (n / 8) + j)
  | 0, h => by
    rw [show (0 % 8 + 1) = 1 from rfl, Finset.sum_range_one]
    refine (outsAt_A V c ⟨0, h⟩ rfl).trans ?_
    show _ = stepN V c 0
    unfold stepN; rw [dif_pos h]
  | n + 1, h => by
    have ih := fold_eq c n (Nat.lt_of_succ_lt h)
    by_cases h0 : (n + 1) % 8 = 0
    · have e1 : (n + 1) % 8 + 1 = 1 := by omega
      have e2 : 8 * ((n + 1) / 8) + 0 = n + 1 := by omega
      rw [e1, Finset.sum_range_one, e2]
      refine (outsAt_A V c ⟨n + 1, h⟩ h0).trans ?_
      unfold stepN; rw [dif_pos h]
    · have e1 : (n + 1) % 8 + 1 = (n % 8 + 1) + 1 := by omega
      have e2 : (n + 1) / 8 = n / 8 := by omega
      have e3 : 8 * (n / 8) + (n % 8 + 1) = n + 1 := by omega
      rw [e1, Finset.sum_range_succ, e2, e3, ← ih]
      refine (outsAt_B V c ⟨n + 1, h⟩ h0).trans ?_
      unfold stepN; rw [dif_pos h]
      rfl

/-- The sum of the row losses of half `q` of the batch. -/
private def total (c : Dev nD) (q : Fin 2) : EReal :=
  ∑ s : Fin 8, ∑ r : Fin 2048,
    rowLoss (fun k d => sums V c (ix2 k d)) (fun k => cnts V c (ix2 0 k)) (fun j d => cov V c (ix2 j d))
      (lab V c (ix2 (row q s r) 0)) (neg V c (ix2 (row q s r) 0))
      (fun d => anc V c (ix2 (row q s r) d)) (fun d => emb V c (ix2 (row q s r) d))

/-- After the last point of half `q`'s run the accumulator holds the half's sum. -/
private theorem last_eq (c : Dev nD) (t : Fin cfg1.N) (h7 : t.val % 8 = 7) (q : Fin 2) (hq : q.val = t.val / 8) :
    outsAt1 V c t.val t.isLt (ix3 0 0 0) = total V c q := by
  have hN : t.val < 16 := lt_of_lt_of_eq t.isLt (show cfg1.N = 16 from N_1)
  rw [fold_eq V c t.val t.isLt, h7, show (7 + 1 : ℕ) = 8 from rfl, Finset.sum_range]
  unfold total
  refine Finset.sum_congr rfl fun s _ => ?_
  have hlt : 8 * (t.val / 8) + s.val < cfg1.N := by
    exact lt_of_lt_of_eq (by have := s.isLt; omega : 8 * (t.val / 8) + s.val < 16) (show cfg1.N = 16 from N_1).symm
  unfold stepN; rw [dif_pos hlt]
  exact stepAt_eq V c ⟨8 * (t.val / 8) + s.val, hlt⟩ q s (by show 8 * (t.val / 8) + s.val = 8 * q.val + s.val; rw [hq])

theorem loss_at (c : Dev nD) (q : Fin 2) :
    ((dat1 V c).arrAt 7 cfg1.N : S2x1x1.Idx → EReal) (ix3 q 0 0)
      = ∑ s : Fin 8, ∑ r : Fin 2048,
          rowLoss (fun k d => sums V c (ix2 k d)) (fun k => cnts V c (ix2 0 k)) (fun j d => cov V c (ix2 j d))
            (lab V c (ix2 (row q s r) 0)) (neg V c (ix2 (row q s r) 0))
            (fun d => anc V c (ix2 (row q s r) d)) (fun d => emb V c (ix2 (row q s r) d)) := by
  have hN : q.val < 2 := q.isLt
  have ht : 8 * q.val + 7 < cfg1.N :=
    lt_of_lt_of_eq (by omega : 8 * q.val + 7 < 16) (show cfg1.N = 16 from N_1).symm
  -- the half's sum as contents of the whole [2,1,1] array
  have key := (dat1 V c).arrAt_apply_of_mem 7 (fun i : S2x1x1.Idx => total V c (i 0)) (fun t hf => by
      have h7 : t.val % 8 = 7 := (flush1_7 t).mp hf
      have ht16 : t.val < 16 := lt_of_lt_of_eq t.isLt (show cfg1.N = 16 from N_1)
      show (cfg1.win 7).cut (grid1.coords t) ((dat1 V c).after 7 t) = _
      rw [after1_7]
      funext y
      have hy : (cfg1.win 7).xinj (grid1.coords t) y = (ix3 0 0 0 : S1x1x1.Idx) := by
        funext a
        apply Fin.ext
        match a with
        | ⟨0, _⟩ => show (y 0).val = 0; have : (y 0).val < 1 := (y 0).isLt; omega
        | ⟨1, _⟩ => show (y 1).val = 0; have : (y 1).val < 1 := (y 1).isLt; omega
        | ⟨2, _⟩ => show (y 2).val = 0; have : (y 2).val < 1 := (y 2).isLt; omega
      show outsAt1 V c t.val t.isLt ((cfg1.win 7).xinj (grid1.coords t) y) = _
      rw [hy, last_eq V c t h7 ⟨t.val / 8, by omega⟩ rfl, View.read_apply]
      show _ = total V c _
      congr 1
      apply Fin.ext
      show t.val / 8 = win1_7.index t 0 * 1 + 1 * (y 0).val
      have : (y 0).val < 1 := (y 0).isLt
      rw [(index7 t).1]; omega)
    cfg1.N ⟨8 * q.val + 7, ht⟩ (ix3 q 0 0) ht ((flush1_7 _).mpr (by show (8 * q.val + 7) % 8 = 7; omega)) (by
      show (ix3 q 0 0 : S2x1x1.Idx) ∈ ((View.whole main_v6).slice (win1_7.rect ⟨8 * q.val + 7, ht⟩)).set
      rw [View.set_slice_whole, Rect.mem_set_unit]
      intro a
      have h8 : (8 * q.val + 7) / 8 = q.val := by omega
      match a with
      | ⟨0, _⟩ =>
        show win1_7.index ⟨8 * q.val + 7, ht⟩ 0 * 1 ≤ q.val ∧ q.val < win1_7.index ⟨8 * q.val + 7, ht⟩ 0 * 1 + 1
        rw [(index7 ⟨8 * q.val + 7, ht⟩).1]; show (8 * q.val + 7) / 8 * 1 ≤ q.val ∧ q.val < (8 * q.val + 7) / 8 * 1 + 1
        rw [h8]; omega
      | ⟨1, _⟩ =>
        show win1_7.index ⟨8 * q.val + 7, ht⟩ 1 * 1 ≤ 0 ∧ 0 < win1_7.index ⟨8 * q.val + 7, ht⟩ 1 * 1 + 1
        rw [(index7 ⟨8 * q.val + 7, ht⟩).2.1]; omega
      | ⟨2, _⟩ =>
        show win1_7.index ⟨8 * q.val + 7, ht⟩ 2 * 1 ≤ 0 ∧ 0 < win1_7.index ⟨8 * q.val + 7, ht⟩ 2 * 1 + 1
        rw [(index7 ⟨8 * q.val + 7, ht⟩).2.2]; omega)
  exact key

end Cert.KernelIdeal.LossRegion

end
-- ==== Proof.KHost.lean ====
/-
  The idealized kernel program's host side: what the TensorCore's buffers hold between and after the two kernel regions, in
  terms of the argument arrays.

  Before the class-statistics region the labels are reshaped to a column. After it, the two halves' partial class sums
  [2,128,512] and partial counts [2,1,128] are added over the halves: since a half's partial is the sum over its 8 steps of
  2048 rows, the two halves together are the sum over the whole batch — the class sums `csum` and counts `ccnt`. After the
  loss region the two halves' partial losses [2,1,1] are added and divided by the batch size: the halves' sums of row losses
  together are the sum over the batch, so the result is `loss`.
-/
import proofs.«405454_j56848187129916_2_alg».proof.Proof.Gen.KernelIdeal.Frame
import proofs.«405454_j56848187129916_2_alg».proof.Proof.Spec
import proofs.«405454_j56848187129916_2_alg».proof.Proof.Stats
import proofs.«405454_j56848187129916_2_alg».proof.Proof.LossRegion
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HostValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Triplet

variable (m : (ℓ : Loc nD τ sig) → Buf (Elt Ideal) ℓ) (ρ : Dev nD → PrngReg)

/-! ## The argument arrays as plain functions of their coordinates -/

abbrev argA (c : Dev nD) : Fin 32768 → Fin 512 → EReal :=
  fun b d => (m ((c.tc : Thread nD τ).loc main_arg0) : S32768x512.Idx → EReal) (ix2 b d)
abbrev argE (c : Dev nD) : Fin 32768 → Fin 512 → EReal :=
  fun b d => (m ((c.tc : Thread nD τ).loc main_arg1) : S32768x512.Idx → EReal) (ix2 b d)
abbrev argC (c : Dev nD) : Fin 512 → Fin 512 → EReal :=
  fun j d => (m ((c.tc : Thread nD τ).loc main_arg2) : S512x512.Idx → EReal) (ix2 j d)
abbrev argL (c : Dev nD) : Fin 32768 → BitVec 32 :=
  fun b => (m ((c.tc : Thread nD τ).loc main_arg3) : S32768.Idx → BitVec 32) (ix1 b)
abbrev argN (c : Dev nD) : Fin 32768 → BitVec 32 :=
  fun b => (m ((c.tc : Thread nD τ).loc main_arg4) : S32768.Idx → BitVec 32) (ix1 b)

/-- A vector reshaped to a column reads, at row `b`, the vector at `b`. -/
theorem col_apply (x : S32768.Idx → BitVec 32) (b : Fin 32768) :
    shapeCast S32768x1 x shapeCasts_S32768_S32768x1 (ix2 b 0) = x (ix1 b) :=
  shapeCast_apply x _ _ _ (by
    rw [Shape.rowMajor_val_one, Shape.rowMajor_val_two]
    show b.val = b.val * 1 + 0
    omega)

/-! ## Before the class-statistics region -/

theorem W1_arg1 (c : Dev nD) : W1 m ρ c (Proc.devRef .tc main_arg1) = m ((c.tc : Thread nD τ).loc main_arg1) := by
  show StableHlo.after hostOps0 (W0 m ρ c) (Proc.devRef .tc main_arg1) = _
  after_results
theorem W1_arg0 (c : Dev nD) : W1 m ρ c (Proc.devRef .tc main_arg0) = m ((c.tc : Thread nD τ).loc main_arg0) := by
  show StableHlo.after hostOps0 (W0 m ρ c) (Proc.devRef .tc main_arg0) = _
  after_results
theorem W1_arg2 (c : Dev nD) : W1 m ρ c (Proc.devRef .tc main_arg2) = m ((c.tc : Thread nD τ).loc main_arg2) := by
  show StableHlo.after hostOps0 (W0 m ρ c) (Proc.devRef .tc main_arg2) = _
  after_results
theorem W1_arg3 (c : Dev nD) : W1 m ρ c (Proc.devRef .tc main_arg3) = m ((c.tc : Thread nD τ).loc main_arg3) := by
  show StableHlo.after hostOps0 (W0 m ρ c) (Proc.devRef .tc main_arg3) = _
  after_results
theorem W1_arg4 (c : Dev nD) : W1 m ρ c (Proc.devRef .tc main_arg4) = m ((c.tc : Thread nD τ).loc main_arg4) := by
  show StableHlo.after hostOps0 (W0 m ρ c) (Proc.devRef .tc main_arg4) = _
  after_results

/-- The labels column the class-statistics region finds, at row `b`: the label of `b`. -/
theorem V1_lab_at (c : Dev nD) (b : Fin 32768) :
    (V1 m ρ c main_v0 : S32768x1.Idx → BitVec 32) (ix2 b 0) = argL m c b := by
  have e : (V1 m ρ c main_v0 : S32768x1.Idx → BitVec 32)
      = shapeCast S32768x1 (m ((c.tc : Thread nD τ).loc main_arg3) : S32768.Idx → BitVec 32) shapeCasts_S32768_S32768x1 := by
    show StableHlo.after hostOps0 (W0 m ρ c) (Proc.devRef .tc main_v0) = _
    after_results <;> rfl
  rw [e]
  exact col_apply _ b

/-! ## Between the regions -/

/-- A buffer that is no array of the class-statistics region is, after it, what it was before. -/
theorem W2_arg0 (c : Dev nD) : W2 m ρ c (Proc.devRef .tc main_arg0) = m ((c.tc : Thread nD τ).loc main_arg0) :=
  (W2_of_ne m ρ c main_arg0 (by decide)).trans (W1_arg0 m ρ c)
theorem W2_arg2 (c : Dev nD) : W2 m ρ c (Proc.devRef .tc main_arg2) = m ((c.tc : Thread nD τ).loc main_arg2) :=
  (W2_of_ne m ρ c main_arg2 (by decide)).trans (W1_arg2 m ρ c)
theorem W2_arg3 (c : Dev nD) : W2 m ρ c (Proc.devRef .tc main_arg3) = m ((c.tc : Thread nD τ).loc main_arg3) :=
  (W2_of_ne m ρ c main_arg3 (by decide)).trans (W1_arg3 m ρ c)
theorem W2_arg4 (c : Dev nD) : W2 m ρ c (Proc.devRef .tc main_arg4) = m ((c.tc : Thread nD τ).loc main_arg4) :=
  (W2_of_ne m ρ c main_arg4 (by decide)).trans (W1_arg4 m ρ c)
/-- The embeddings are an input array of the class-statistics region: it leaves them as it found them. -/
theorem W2_arg1 (c : Dev nD) : W2 m ρ c (Proc.devRef .tc main_arg1) = m ((c.tc : Thread nD τ).loc main_arg1) :=
  ((W2_arr m ρ c 0).trans (((dat0 (V1 m ρ) c).arrAt_in 0 rfl _).trans (A_eq0 (V1 m ρ) c 0))).trans (W1_arg1 m ρ c)

theorem V3_anc (c : Dev nD) : V3 m ρ c main_arg0 = m ((c.tc : Thread nD τ).loc main_arg0) := by
  show StableHlo.after hostOps1 (W2 m ρ c) (Proc.devRef .tc main_arg0) = _
  after_results
  exact W2_arg0 m ρ c
theorem V3_emb (c : Dev nD) : V3 m ρ c main_arg1 = m ((c.tc : Thread nD τ).loc main_arg1) := by
  show StableHlo.after hostOps1 (W2 m ρ c) (Proc.devRef .tc main_arg1) = _
  after_results
  exact W2_arg1 m ρ c
theorem V3_cov (c : Dev nD) : V3 m ρ c main_arg2 = m ((c.tc : Thread nD τ).loc main_arg2) := by
  show StableHlo.after hostOps1 (W2 m ρ c) (Proc.devRef .tc main_arg2) = _
  after_results
  exact W2_arg2 m ρ c

/-- The labels column the loss region finds, at row `b`. -/
theorem V3_lab_at (c : Dev nD) (b : Fin 32768) :
    (V3 m ρ c main_v4 : S32768x1.Idx → BitVec 32) (ix2 b 0) = argL m c b := by
  have e : (V3 m ρ c main_v4 : S32768x1.Idx → BitVec 32)
      = shapeCast S32768x1 (W2 m ρ c (Proc.devRef .tc main_arg3) : S32768.Idx → BitVec 32) shapeCasts_S32768_S32768x1 := by
    show StableHlo.after hostOps1 (W2 m ρ c) (Proc.devRef .tc main_v4) = _
    after_results <;> rfl
  rw [e, W2_arg3]
  exact col_apply _ b
/-- The negative-labels column the loss region finds, at row `b`. -/
theorem V3_neg_at (c : Dev nD) (b : Fin 32768) :
    (V3 m ρ c main_v5 : S32768x1.Idx → BitVec 32) (ix2 b 0) = argN m c b := by
  have e : (V3 m ρ c main_v5 : S32768x1.Idx → BitVec 32)
      = shapeCast S32768x1 (W2 m ρ c (Proc.devRef .tc main_arg4) : S32768.Idx → BitVec 32) shapeCasts_S32768_S32768x1 := by
    show StableHlo.after hostOps1 (W2 m ρ c) (Proc.devRef .tc main_v5) = _
    after_results <;> rfl
  rw [e, W2_arg4]
  exact col_apply _ b

/-- The class sums the loss region finds: the two halves' partial sums added, which is the sum over the batch. -/
theorem V3_sums_at (c : Dev nD) (k : Fin 128) (d : Fin 512) :
    (V3 m ρ c main_v2 : S128x512.Idx → EReal) (ix2 k d) = csum (argE m c) (argL m c) k d := by
  have e : (V3 m ρ c main_v2 : S128x512.Idx → EReal)
      = Host.reduceAdd (F := Ideal) (W2 m ρ c (Proc.devRef .tc main_v1_0) : S2x128x512.Idx → EReal) (constant (F := Ideal) S_ .f32 0x00000000#32)
          reducesTo_S2x128x512_S128x512_d0 h_S_ := by
    show StableHlo.after hostOps1 (W2 m ρ c) (Proc.devRef .tc main_v2) = _
    after_results <;> rfl
  rw [e]
  show @Eq EReal _ _
  simp only [Host.reduceAdd, Ideal.hostReduceAdd_def]
  rw [Ideal.hostReduceAdd_single reducesTo_S2x128x512_S128x512_d0 (by decide)]
  have hin : (constant (F := Ideal) S_ .f32 0x00000000#32) (Shape.Idx.first h_S_) = (0 : EReal) := Ideal.ofBits_zero_f32
  rw [hin, zero_add]
  unfold csum
  rw [sum_batch_eq (M := EReal)]
  refine Finset.sum_congr rfl fun (q : Fin 2) _ => ?_
  have hl : ∀ h : S2x128x512.Reduces [0] S128x512, h.lift (ix2 k d) q = ix3 q k d := fun h =>
    funext fun a => Fin.ext (by match a with | ⟨0, _⟩ => rfl | ⟨1, _⟩ => rfl | ⟨2, _⟩ => rfl)
  have hW : (W2 m ρ c (Proc.devRef .tc main_v1_0) : S2x128x512.Idx → EReal) = (dat0 (V1 m ρ) c).arrAt 2 cfg0.N :=
    W2_arr m ρ c 2
  rw [hl, hW]
  show @Eq EReal (((dat0 (V1 m ρ) c).arrAt 2 cfg0.N : S2x128x512.Idx → EReal) (ix3 q k d)) _
  rw [Stats.sums_at (V1 m ρ) c q k d]
  refine Finset.sum_congr rfl fun s _ => Finset.sum_congr rfl fun r _ => ?_
  show sel ((V1 m ρ c main_v0 : S32768x1.Idx → BitVec 32) (ix2 (row q s r) 0)) k
      * (V1 m ρ c main_arg1 : S32768x512.Idx → EReal) (ix2 (row q s r) d) = _
  rw [V1_lab_at]
  exact congrArg (fun x => sel (argL m c (row q s r)) k * x) (congrFun (W1_arg1 m ρ c) (ix2 (row q s r) d))

/-- The class counts the loss region finds: the two halves' partial counts added, which is the count over the batch. -/
theorem V3_cnts_at (c : Dev nD) (k : Fin 128) :
    (V3 m ρ c main_v3 : S1x128.Idx → EReal) (ix2 0 k) = ccnt (argL m c) k := by
  have e : (V3 m ρ c main_v3 : S1x128.Idx → EReal)
      = Host.reduceAdd (F := Ideal) (W2 m ρ c (Proc.devRef .tc main_v1_1) : S2x1x128.Idx → EReal) (constant (F := Ideal) S_ .f32 0x00000000#32)
          reducesTo_S2x1x128_S1x128_d0 h_S_ := by
    show StableHlo.after hostOps1 (W2 m ρ c) (Proc.devRef .tc main_v3) = _
    after_results <;> rfl
  rw [e]
  show @Eq EReal _ _
  simp only [Host.reduceAdd, Ideal.hostReduceAdd_def]
  rw [Ideal.hostReduceAdd_single reducesTo_S2x1x128_S1x128_d0 (by decide)]
  have hin : (constant (F := Ideal) S_ .f32 0x00000000#32) (Shape.Idx.first h_S_) = (0 : EReal) := Ideal.ofBits_zero_f32
  rw [hin, zero_add]
  unfold ccnt
  rw [sum_batch_eq (M := EReal)]
  refine Finset.sum_congr rfl fun (q : Fin 2) _ => ?_
  have hl : ∀ h : S2x1x128.Reduces [0] S1x128, h.lift (ix2 0 k) q = ix3 q 0 k := fun h =>
    funext fun a => Fin.ext (by match a with | ⟨0, _⟩ => rfl | ⟨1, _⟩ => rfl | ⟨2, _⟩ => rfl)
  have hW : (W2 m ρ c (Proc.devRef .tc main_v1_1) : S2x1x128.Idx → EReal) = (dat0 (V1 m ρ) c).arrAt 3 cfg0.N :=
    W2_arr m ρ c 3
  rw [hl, hW]
  show @Eq EReal (((dat0 (V1 m ρ) c).arrAt 3 cfg0.N : S2x1x128.Idx → EReal) (ix3 q 0 k)) _
  rw [Stats.cnts_at (V1 m ρ) c q k]
  refine Finset.sum_congr rfl fun s _ => Finset.sum_congr rfl fun r _ => ?_
  show sel ((V1 m ρ c main_v0 : S32768x1.Idx → BitVec 32) (ix2 (row q s r) 0)) k = _
  rw [V1_lab_at]

/-! ## After the loss region -/

/-- The index `(q, 0, 0)` of the two partial losses is all of their indices. -/
theorem ix3_q00_bijective : Function.Bijective (fun q : Fin 2 => (ix3 q (0 : Fin 1) (0 : Fin 1) : S2x1x1.Idx)) := by
  refine ⟨fun q q' h => ?_, fun i => ⟨i 0, ?_⟩⟩
  · exact congrFun h 0
  · refine funext fun a => ?_
    match a with
    | ⟨0, _⟩ => rfl
    | ⟨1, _⟩ => exact Subsingleton.elim (α := Fin 1) _ _
    | ⟨2, _⟩ => exact Subsingleton.elim (α := Fin 1) _ _

/-- A sum over the two partial losses' indices is the sum over the two halves. -/
theorem sum_halves (G : S2x1x1.Idx → EReal) : ∑ i : S2x1x1.Idx, G i = ∑ q : Fin 2, G (ix3 q 0 0) :=
  (Fintype.sum_bijective (fun q : Fin 2 => (ix3 q (0 : Fin 1) (0 : Fin 1) : S2x1x1.Idx)) ix3_q00_bijective
    (fun q => G (ix3 q 0 0)) G (fun _ => rfl)).symm

/-- THE RESULT: after @main the result buffer holds the loss of the argument arrays. -/
theorem result_value (c : Dev nD) (i : S_.Idx) :
    (W5 m ρ c (Proc.devRef .tc main_v8) : S_.Idx → EReal) i
      = loss (argA m c) (argE m c) (argC m c) (argL m c) (argN m c) := by
  have e : (W5 m ρ c (Proc.devRef .tc main_v8) : S_.Idx → EReal)
      = Host.divf (F := Ideal)
          (Host.reduceAdd (F := Ideal) (W4 m ρ c (Proc.devRef .tc main_v6) : S2x1x1.Idx → EReal) (constant (F := Ideal) S_ .f32 0x00000000#32)
            reducesTo_S2x1x1_S_d0_1_2 h_S_)
          (constant (F := Ideal) S_ .f32 0x47000000#32) := by
    show StableHlo.after hostOps2 (W4 m ρ c) (Proc.devRef .tc main_v8) = _
    after_results <;> rfl
  rw [e]
  show @Eq EReal _ _
  unfold loss
  simp only [Host.divf, Host.reduceAdd, Ideal.hostReduceAdd_def, Ideal.hostDivf_def]
  refine congrArg₂ Ideal.div ?_ rfl
  rw [Ideal.hostReduceAdd_total reducesTo_S2x1x1_S_d0_1_2 (fun b => b.elim0)]
  have hin : (constant (F := Ideal) S_ .f32 0x00000000#32) (Shape.Idx.first h_S_) = (0 : EReal) := Ideal.ofBits_zero_f32
  rw [hin, zero_add, sum_batch_eq (M := EReal)]
  have hW : (W4 m ρ c (Proc.devRef .tc main_v6) : S2x1x1.Idx → EReal) = (dat1 (V3 m ρ) c).arrAt 7 cfg1.N :=
    W4_arr m ρ c 7
  rw [hW, sum_halves ((dat1 (V3 m ρ) c).arrAt 7 cfg1.N : S2x1x1.Idx → EReal)]
  refine Finset.sum_congr rfl fun (q : Fin 2) _ => ?_
  rw [LossRegion.loss_at (V3 m ρ) c q]
  refine Finset.sum_congr rfl fun s _ => Finset.sum_congr rfl fun r _ => ?_
  have hS : (fun (k : Fin 128) (d : Fin 512) => (V3 m ρ c main_v2 : S128x512.Idx → EReal) (ix2 k d)) = csum (argE m c) (argL m c) :=
    funext fun k => funext fun d => V3_sums_at m ρ c k d
  have hN : (fun k : Fin 128 => (V3 m ρ c main_v3 : S1x128.Idx → EReal) (ix2 0 k)) = ccnt (argL m c) :=
    funext fun k => V3_cnts_at m ρ c k
  have hC : (fun (j : Fin 512) (d : Fin 512) => (V3 m ρ c main_arg2 : S512x512.Idx → EReal) (ix2 j d)) = argC m c :=
    funext fun j => funext fun d => congrFun (V3_cov m ρ c) (ix2 j d)
  have hA : (fun d : Fin 512 => (V3 m ρ c main_arg0 : S32768x512.Idx → EReal) (ix2 (row q s r) d)) = argA m c (row q s r) :=
    funext fun d => congrFun (V3_anc m ρ c) (ix2 (row q s r) d)
  have hE : (fun d : Fin 512 => (V3 m ρ c main_arg1 : S32768x512.Idx → EReal) (ix2 (row q s r) d)) = argE m c (row q s r) :=
    funext fun d => congrFun (V3_emb m ρ c) (ix2 (row q s r) d)
  show rowLoss (fun (k : Fin 128) (d : Fin 512) => (V3 m ρ c main_v2 : S128x512.Idx → EReal) (ix2 k d))
      (fun k : Fin 128 => (V3 m ρ c main_v3 : S1x128.Idx → EReal) (ix2 0 k))
      (fun (j : Fin 512) (d : Fin 512) => (V3 m ρ c main_arg2 : S512x512.Idx → EReal) (ix2 j d))
      ((V3 m ρ c main_v4 : S32768x1.Idx → BitVec 32) (ix2 (row q s r) 0))
      ((V3 m ρ c main_v5 : S32768x1.Idx → BitVec 32) (ix2 (row q s r) 0))
      (fun d : Fin 512 => (V3 m ρ c main_arg0 : S32768x512.Idx → EReal) (ix2 (row q s r) d))
      (fun d : Fin 512 => (V3 m ρ c main_arg1 : S32768x512.Idx → EReal) (ix2 (row q s r) d)) = _
  rw [hS, hN, hC, hA, hE, V3_lab_at, V3_neg_at]

end Cert.KernelIdeal.HostValue

end
-- ==== Proof.RefTables.lean ====
/-
  The reference's class tables and their reads.

  `segment_sum` is a scatter-add into zeros: entry (k, d) of the sums gains every embedding row whose label word, read signed,
  is `k` — the class sum `csum`; with ones for rows it is the class count `ccnt` (the word 1.0 is the real 1). No range is
  needed there: an update whose label is outside [0, 128) lands nowhere, and its indicator is 0 at every class.
  A table read at a label is a gather whose start index is first wrapped when negative and then clamped into [0, 127]. For a
  label inside [0, 128) neither changes it, and the entry read is the indicator sum `pick` of the table at the label.
-/
import proofs.«405454_j56848187129916_2_alg».proof.Proof.Gen.ReferenceIdeal.Read
import proofs.«405454_j56848187129916_2_alg».proof.Proof.Spec
import Idealize.ShloMosaic.Lib.ValueIdx
import Idealize.ShloMosaic.Lib.IdealHost
import Idealize.ShloMosaic.Lib.StableHlo.Predicate
import Idealize.ShloMosaic.PureOps.Ideal.Laws

set_option maxRecDepth 16384

noncomputable section

namespace Cert.ReferenceIdeal.RefTables

open Idealize.ShloMosaic Idealize.ShloMosaic.ValueIdx
open Cert.ReferenceIdeal Cert.ReferenceIdeal.Read Cert.Triplet

/-- An update index lands at operand index `i` exactly when, on every operand axis, the window's start plus the window
    coordinate is `i`'s coordinate. -/
private theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · next hh =>
      have h' := Option.some.inj h
      intro a
      have := congrArg (fun f => ((f a).val : ℤ)) h'
      simp only at this
      rw [← this]
      exact (Int.toNat_of_nonneg (hh a).1).symm
    · exact absurd h (by simp)
  · intro h
    have hh : ∀ a, 0 ≤ d.start j idx a + (d.window j a : ℤ) ∧ d.start j idx a + (d.window j a : ℤ) < s.size a := by
      intro a; rw [h a]; exact ⟨Int.natCast_nonneg _, by exact_mod_cast (i a).isLt⟩
    rw [dif_pos hh]
    congr 1
    funext a
    refine Fin.ext ?_
    show (d.start j idx a + (d.window j a : ℤ)).toNat = (i a).val
    rw [h a]; exact Int.toNat_natCast _

private abbrev sc2 := scatter_S128x512_S32768x1_S32768x512_1_0_0_1
private abbrev sc1 := scatter_S128_S32768x1_S32768_n_0_0_1

private theorem sc2_start0 (j : S32768x512.Idx) (idx : IVec S32768x1 32) :
    sc2.start j idx 0 = (idx (ix2 (j 0) 0)).toInt := by
  unfold ScatterDims.start
  rw [dif_pos (show (0 : Fin 2) ∈ sc2.scatterDimsToOperandDims from List.mem_singleton.mpr rfl)]
  congr 2
  funext b; refine Fin.ext ?_
  match b with
  | ⟨0, _⟩ => rfl
  | ⟨1, _⟩ => rfl

private theorem sc2_start1 (j : S32768x512.Idx) (idx : IVec S32768x1 32) : sc2.start j idx 1 = 0 := by
  unfold ScatterDims.start
  rw [dif_neg (show (1 : Fin 2) ∉ sc2.scatterDimsToOperandDims by decide)]

private theorem sc2_window0 (j : S32768x512.Idx) : sc2.window j 0 = 0 := by
  unfold ScatterDims.window
  rw [dif_neg (show (0 : Fin 2) ∉ sc2.sKept by decide)]

private theorem sc2_window1 (j : S32768x512.Idx) : sc2.window j 1 = (j 1).val := by
  unfold ScatterDims.window
  rw [dif_pos (show (1 : Fin 2) ∈ sc2.sKept by decide)]
  rfl

/-- A word's signed reading is the class number `k` exactly when the word is `k`'s word. -/
private theorem toInt_eq_iff (w : BitVec 32) (k : Fin 128) : w.toInt = (k.val : ℤ) ↔ w = BitVec.ofNat 32 k.val := by
  rw [← StableHlo.Predicate.toInt_ofNat_small k.val (by have := k.isLt; omega)]
  exact BitVec.toInt_inj

/-- Update `(b, c)` of the row scatter lands at `(k, d)` exactly when row `b`'s index word is `k` and `c = d`. -/
private theorem sc2_lands (b : Fin 32768) (c : Fin 512) (idx : IVec S32768x1 32) (k : Fin 128) (d : Fin 512) :
    sc2.resultIdx? (ix2 b c) idx = some (ix2 k d) ↔ idx (ix2 b 0) = BitVec.ofNat 32 k.val ∧ c = d := by
  rw [resultIdx?_eq_some_iff, Fin.forall_fin_two, sc2_start0, sc2_start1, sc2_window0, sc2_window1]
  show (idx (ix2 b 0)).toInt + ((0 : ℕ) : ℤ) = (k.val : ℤ) ∧ (0 : ℤ) + ((c.val : ℕ) : ℤ) = ((d.val : ℕ) : ℤ) ↔ _
  rw [Nat.cast_zero, add_zero, zero_add, toInt_eq_iff, Nat.cast_inj, Fin.val_inj]

/-- A rank-1 index set is its one coordinate's range … -/
private def idxEquiv1 {n : Nat} : (⟨1, ![n]⟩ : Shape).Idx ≃ Fin n where
  toFun i := i 0
  invFun p := ix1 p
  left_inv i := (eq_ix1 i).symm
  right_inv _ := rfl
/-- … so a sum over it is the sum over the coordinate. -/
private theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

private theorem sc1_start0 (j : S32768.Idx) (idx : IVec S32768x1 32) :
    sc1.start j idx 0 = (idx (ix2 (j 0) 0)).toInt := by
  unfold ScatterDims.start
  rw [dif_pos (show (0 : Fin 1) ∈ sc1.scatterDimsToOperandDims from List.mem_singleton.mpr rfl)]
  congr 2
  funext b; refine Fin.ext ?_
  match b with
  | ⟨0, _⟩ => rfl
  | ⟨1, _⟩ => rfl

private theorem sc1_window0 (j : S32768.Idx) : sc1.window j 0 = 0 := by
  unfold ScatterDims.window
  rw [dif_neg (show (0 : Fin 1) ∉ sc1.sKept by decide)]

/-- Update `b` of the count scatter lands at `k` exactly when row `b`'s index word is `k`. -/
private theorem sc1_lands (b : Fin 32768) (idx : IVec S32768x1 32) (k : Fin 128) :
    sc1.resultIdx? (ix1 b) idx = some (ix1 k) ↔ idx (ix2 b 0) = BitVec.ofNat 32 k.val := by
  rw [resultIdx?_eq_some_iff, Fin.forall_fin_one, sc1_start0, sc1_window0]
  show (idx (ix2 b 0)).toInt + ((0 : ℕ) : ℤ) = (k.val : ℤ) ↔ _
  rw [Nat.cast_zero, add_zero, toInt_eq_iff]

/-- The wrap of a negative index (a word below zero has 128 added), on a word inside `[0, 128)`: the signed test "below zero" fails and the select
    returns the word itself. -/
private theorem wrap_id (w a : BitVec 32) (hw : w.toNat < 128) :
    Scalar.select (IntOp.cmpi .slt w 0#32) a w = w := by
  have h : ¬ IntOp.cmpi .slt w 0#32 = 1#1 := by
    rw [StableHlo.Predicate.slt_iff_toNat (by omega) (by decide)]
    exact Nat.not_lt_zero _
  rw [eq_zero_of_ne_one h]
  exact select_zero _ _

/-- A start index inside `[0, 128)` is its own clamp into `[0, 127]`. -/
private theorem clamp_id (w : BitVec 32) (hw : w.toNat < 128) : min w.toInt.toNat 127 = w.toNat := by
  rw [StableHlo.Predicate.toInt_eq_toNat_of_lt (by omega), Int.toNat_natCast]
  omega

private abbrev g2 := gather_S128x512_S32768x1_S32768x512_1_0_n_n_0_1_1512
private abbrev g1 := gather_S128_S32768x1_S32768_n_0_n_n_0_1_1

/-- The row gather read at `(b, c)`: the table at row "`b`'s start index, read signed and clamped into `[0, 127]`",
    column `c`. -/
private theorem g2_apply {α : Type} (x : S128x512.Idx → α) (idx : IVec S32768x1 32) (b : Fin 32768) (c : Fin 512) :
    Host.gather g2 x idx (ix2 b c) = x (ix2 ⟨min (idx (ix2 b 0)).toInt.toNat 127, by omega⟩ c) := by
  unfold Host.gather
  congr 1
  funext a
  refine Fin.ext ?_
  match a with
  | ⟨0, _⟩ =>
    show g2.start (ix2 b c) idx 0 + g2.batchCoord (ix2 b c) 0 + g2.offCoord (ix2 b c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ g2.startIndexMap from List.mem_singleton.mpr rfl)]
    have hsi : g2.siIdx (ix2 b c) ⟨List.idxOf (0 : Fin 2) g2.startIndexMap,
        List.idxOf_lt_length_iff.2 (List.mem_singleton.mpr rfl)⟩ = ix2 b 0 := by
      funext e; refine Fin.ext ?_
      match e with
      | ⟨0, _⟩ => rfl
      | ⟨1, _⟩ => rfl
    rw [hsi]
    rfl
  | ⟨1, _⟩ =>
    show g2.start (ix2 b c) idx 1 + g2.batchCoord (ix2 b c) 1 + g2.offCoord (ix2 b c) 1 = c.val
    rw [GatherDims.batchCoord_eq_zero _ _ _ List.not_mem_nil]
    unfold GatherDims.start GatherDims.offCoord
    rw [dif_neg (show (1 : Fin 2) ∉ g2.startIndexMap by decide), dif_pos (show (1 : Fin 2) ∈ g2.sKept by decide)]
    simp only [Nat.zero_add]
    rfl

/-- … and at a start index `w` inside `[0, 128)` it reads row `w`. -/
private theorem g2_at {α : Type} (x : S128x512.Idx → α) (idx : IVec S32768x1 32) (b : Fin 32768) (c : Fin 512)
    (w : BitVec 32) (hw : idx (ix2 b 0) = w) (h : w.toNat < 128) :
    Host.gather g2 x idx (ix2 b c) = x (ix2 ⟨w.toNat, h⟩ c) := by
  subst hw
  rw [g2_apply]
  have e : (⟨min (idx (ix2 b 0)).toInt.toNat 127, by omega⟩ : Fin 128) = ⟨(idx (ix2 b 0)).toNat, h⟩ :=
    Fin.ext (clamp_id _ h)
  rw [e]

/-- The rank-1 gather read at `b`: the table at "`b`'s start index, read signed and clamped into `[0, 127]`". -/
private theorem g1_apply {α : Type} (x : S128.Idx → α) (idx : IVec S32768x1 32) (b : Fin 32768) :
    Host.gather g1 x idx (ix1 b) = x (ix1 ⟨min (idx (ix2 b 0)).toInt.toNat 127, by omega⟩) := by
  unfold Host.gather
  congr 1
  funext a
  refine Fin.ext ?_
  match a with
  | ⟨0, _⟩ =>
    show g1.start (ix1 b) idx 0 + g1.batchCoord (ix1 b) 0 + g1.offCoord (ix1 b) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ g1.startIndexMap from List.mem_singleton.mpr rfl)]
    have hsi : g1.siIdx (ix1 b) ⟨List.idxOf (0 : Fin 1) g1.startIndexMap,
        List.idxOf_lt_length_iff.2 (List.mem_singleton.mpr rfl)⟩ = ix2 b 0 := by
      funext e; refine Fin.ext ?_
      match e with
      | ⟨0, _⟩ => rfl
      | ⟨1, _⟩ => rfl
    rw [hsi]
    rfl

/-- … and at a start index `w` inside `[0, 128)` it reads entry `w`. -/
private theorem g1_at {α : Type} (x : S128.Idx → α) (idx : IVec S32768x1 32) (b : Fin 32768)
    (w : BitVec 32) (hw : idx (ix2 b 0) = w) (h : w.toNat < 128) :
    Host.gather g1 x idx (ix1 b) = x (ix1 ⟨w.toNat, h⟩) := by
  subst hw
  rw [g1_apply]
  have e : (⟨min (idx (ix2 b 0)).toInt.toNat 127, by omega⟩ : Fin 128) = ⟨(idx (ix2 b 0)).toNat, h⟩ :=
    Fin.ext (clamp_id _ h)
  rw [e]

/-- Row `b` of a column is entry `b` of the vector it was made from. -/
private theorem col_idx (b : Fin 32768) : idx_main_v12 (ix2 b 0) = ix1 b := by
  funext a; match a with | ⟨0, _⟩ => rfl

/-- The four wrapped index columns, at a word inside `[0, 128)`, hold the word itself. -/
private theorem v12_at (x3 : IVec S32768 32) (b : Fin 32768) (h : (x3 (ix1 b)).toNat < 128) :
    val_main_v12 (F := Ideal) x3 (ix2 b 0) = x3 (ix1 b) := by
  rw [val_main_v12_apply, col_idx, val_main_v11_apply, val_main_v8_apply, val_main_v7_apply, val_main_c_apply]
  exact wrap_id _ _ h
private theorem v20_at (x3 : IVec S32768 32) (b : Fin 32768) (h : (x3 (ix1 b)).toNat < 128) :
    val_main_v20 (F := Ideal) x3 (ix2 b 0) = x3 (ix1 b) := by
  rw [val_main_v20_apply, show idx_main_v20 (ix2 b 0) = ix1 b from col_idx b, val_main_v19_apply, val_main_v16_apply,
    val_main_v15_apply, val_main_c_3_apply]
  exact wrap_id _ _ h
private theorem v34_at (x4 : IVec S32768 32) (b : Fin 32768) (h : (x4 (ix1 b)).toNat < 128) :
    val_main_v34 (F := Ideal) x4 (ix2 b 0) = x4 (ix1 b) := by
  rw [val_main_v34_apply, show idx_main_v34 (ix2 b 0) = ix1 b from col_idx b, val_main_v33_apply, val_main_v30_apply,
    val_main_v29_apply, val_main_c_7_apply]
  exact wrap_id _ _ h
private theorem v41_at (x4 : IVec S32768 32) (b : Fin 32768) (h : (x4 (ix1 b)).toNat < 128) :
    val_main_v41 (F := Ideal) x4 (ix2 b 0) = x4 (ix1 b) := by
  rw [val_main_v41_apply, show idx_main_v41 (ix2 b 0) = ix1 b from col_idx b, val_main_v40_apply, val_main_v37_apply,
    val_main_v36_apply, val_main_c_9_apply]
  exact wrap_id _ _ h

/-- The scatter of the embedding rows by label, read at class `k`, column `d`: the class sum. -/
theorem sums_apply (x1 : FVec Ideal S32768x512 .f32) (x3 : IVec S32768 32) (k : Fin 128) (d : Fin 512) :
    val_main_v2 (F := Ideal) x1 x3 (ix2 k d) = csum (fun b d => x1 (ix2 b d)) (fun b => x3 (ix1 b)) k d := by
  unfold val_main_v2 Host.scatterAdd
  rw [Ideal.hostScatterAdd_def]
  unfold Ideal.hostScatterAdd
  rw [val_main_v0_apply, val_main_cst_apply, Ideal.ofBits_def, Ideal.ofBits_zero_f32, zero_add, Finset.sum_filter,
    sum_idx2]
  unfold csum
  refine Finset.sum_congr rfl (fun b _ => ?_)
  simp only [sc2_lands]
  have hv : val_main_v1 (F := Ideal) x3 (ix2 b 0) = x3 (ix1 b) := by
    rw [val_main_v1_apply]; congr 1; funext a; match a with | ⟨0, _⟩ => rfl
  rw [hv]
  unfold sel
  by_cases hk : x3 (ix1 b) = BitVec.ofNat 32 k.val
  · rw [if_pos hk, one_mul, Finset.sum_eq_single d]
    · rw [if_pos ⟨hk, rfl⟩]
    · intro c _ hc; rw [if_neg (fun h => hc h.2)]
    · intro h; exact absurd (Finset.mem_univ _) h
  · rw [if_neg hk, zero_mul]
    exact Finset.sum_eq_zero (fun c _ => if_neg (fun h => hk h.1))

/-- The scatter of ones by label, read at class `k`: the class count. -/
theorem cnts_apply (x3 : IVec S32768 32) (k : Fin 128) :
    val_main_v6 (F := Ideal) x3 (ix1 k) = ccnt (fun b => x3 (ix1 b)) k := by
  unfold val_main_v6 Host.scatterAdd
  rw [Ideal.hostScatterAdd_def]
  unfold Ideal.hostScatterAdd
  rw [val_main_v4_apply, val_main_cst_1_apply, Ideal.ofBits_def, Ideal.ofBits_zero_f32, zero_add, Finset.sum_filter,
    sum_idx1]
  unfold ccnt
  refine Finset.sum_congr rfl (fun b _ => ?_)
  simp only [sc1_lands]
  have hv : val_main_v5 (F := Ideal) x3 (ix2 b 0) = x3 (ix1 b) := by
    rw [val_main_v5_apply]; congr 1; funext a; match a with | ⟨0, _⟩ => rfl
  rw [hv, val_main_v3_apply, val_main_cst_0_apply, Ideal.ofBits_def, Ideal.ofBits_one_f32]
  unfold sel
  by_cases hk : x3 (ix1 b) = BitVec.ofNat 32 k.val
  · rw [if_pos hk]
  · rw [if_neg hk]

/-- The class sums gathered at a row's own label, inside the label range: the indicator sum. -/
theorem own_sum_apply (x1 : FVec Ideal S32768x512 .f32) (x3 : IVec S32768 32)
    (h3 : ∀ b : Fin 32768, (x3 (ix1 b)).toNat < 128) (b : Fin 32768) (d : Fin 512) :
    val_main_v13 (F := Ideal) x1 x3 (ix2 b d)
      = pick (x3 (ix1 b)) (fun k => csum (fun b d => x1 (ix2 b d)) (fun b => x3 (ix1 b)) k d) := by
  unfold val_main_v13
  rw [g2_at _ _ b d (x3 (ix1 b)) (v12_at x3 b (h3 b)) (h3 b), sums_apply, pick_of_lt _ (h3 b)]

/-- The class counts gathered at a row's own label. -/
theorem own_cnt_apply (x3 : IVec S32768 32) (h3 : ∀ b : Fin 32768, (x3 (ix1 b)).toNat < 128) (b : Fin 32768) :
    val_main_v21 (F := Ideal) x3 (ix1 b) = pick (x3 (ix1 b)) (ccnt (fun b => x3 (ix1 b))) := by
  unfold val_main_v21
  rw [g1_at _ _ b (x3 (ix1 b)) (v20_at x3 b (h3 b)) (h3 b), cnts_apply, pick_of_lt _ (h3 b)]

/-- The class sums gathered at a row's negative label. -/
theorem neg_sum_apply (x1 : FVec Ideal S32768x512 .f32) (x3 x4 : IVec S32768 32)
    (h4 : ∀ b : Fin 32768, (x4 (ix1 b)).toNat < 128) (b : Fin 32768) (d : Fin 512) :
    val_main_v35 (F := Ideal) x1 x3 x4 (ix2 b d)
      = pick (x4 (ix1 b)) (fun k => csum (fun b d => x1 (ix2 b d)) (fun b => x3 (ix1 b)) k d) := by
  unfold val_main_v35
  rw [g2_at _ _ b d (x4 (ix1 b)) (v34_at x4 b (h4 b)) (h4 b), sums_apply, pick_of_lt _ (h4 b)]

/-- The class counts gathered at a row's negative label. -/
theorem neg_cnt_apply (x3 x4 : IVec S32768 32) (h4 : ∀ b : Fin 32768, (x4 (ix1 b)).toNat < 128) (b : Fin 32768) :
    val_main_v42 (F := Ideal) x3 x4 (ix1 b) = pick (x4 (ix1 b)) (ccnt (fun b => x3 (ix1 b))) := by
  unfold val_main_v42
  rw [g1_at _ _ b (x4 (ix1 b)) (v41_at x4 b (h4 b)) (h4 b), cnts_apply, pick_of_lt _ (h4 b)]

end Cert.ReferenceIdeal.RefTables

end
-- ==== Proof.RefValue.lean ====
/-
  The reference's result is the loss.

  Stage by stage at a row `b`: the positive centre `(sums[label] − row) / max (count[label] − 1) 1` and the negative centre
  `sums[neg] / max count[neg] 1`, the tables read at labels inside [0, 128) as indicator sums; the anchor's differences from
  them; for each the product with the inverse covariance, the row sum of products, `max · 0`, `+ ε`, the square root; the
  difference of the two distances plus the margin, `max · 0`; then the sum over the batch from zero, divided by the batch size.
-/
import proofs.«405454_j56848187129916_2_alg».proof.Proof.Gen.ReferenceIdeal.Read
import proofs.«405454_j56848187129916_2_alg».proof.Proof.Spec
import proofs.«405454_j56848187129916_2_alg».proof.Proof.RefTables
import Idealize.ShloMosaic.Lib.ValueIdx
import Idealize.ShloMosaic.PureOps.Ideal.Laws

set_option maxRecDepth 16384

noncomputable section

namespace Cert.ReferenceIdeal.RefValue

open Idealize.ShloMosaic Idealize.ShloMosaic.ValueIdx
open Cert.ReferenceIdeal Cert.ReferenceIdeal.Read Cert.Triplet

/-- The row coordinate survives the two broadcasts of a per-row scalar along the columns. -/
private theorem idx_row (b : Fin 32768) (d : Fin 512) : idx_main_v26 (idx_main_v27 (ix2 b d)) = ix1 b := by
  funext a; match a with | ⟨0, _⟩ => rfl

/-- The positive centre's difference row: the anchor less (own class sum less the row itself) over (own count − 1, at least 1). -/
private theorem pos_row (x0 x1 : FVec Ideal S32768x512 .f32) (x3 : IVec S32768 32)
    (h3 : ∀ b : Fin 32768, (x3 (ix1 b)).toNat < 128) (b : Fin 32768) (d : Fin 512) :
    val_main_v48 (F := Ideal) x0 x1 x3 (ix2 b d)
      = x0 (ix2 b d) - Ideal.div (pick (x3 (ix1 b)) (fun k => csum (fun b d => x1 (ix2 b d)) (fun b => x3 (ix1 b)) k d) - x1 (ix2 b d))
          (max (pick (x3 (ix1 b)) (ccnt (fun b => x3 (ix1 b))) - one) one) := by
  rw [val_main_v48_apply, val_main_v28_apply, val_main_v14_apply, val_main_v27_apply, val_main_v26_apply,
    idx_row, val_main_v25_apply, val_main_v23_apply, val_main_v22_apply, val_main_v24_apply,
    val_main_cst_5_apply, val_main_cst_6_apply, RefTables.own_sum_apply x1 x3 h3, RefTables.own_cnt_apply x3 h3]
  simp only [Ideal.subf_def, Ideal.hostDivf_def, Ideal.maximumf_def, Ideal.ofBits_def]

/-- The same for the negative centre's per-row scalar. -/
private theorem idx_row' (b : Fin 32768) (d : Fin 512) : idx_main_v45 (idx_main_v46 (ix2 b d)) = ix1 b := by
  funext a; match a with | ⟨0, _⟩ => rfl

/-- The negative centre's difference row: the anchor less the negative class's sum over its count (at least 1). -/
private theorem neg_row (x0 x1 : FVec Ideal S32768x512 .f32) (x3 x4 : IVec S32768 32)
    (h4 : ∀ b : Fin 32768, (x4 (ix1 b)).toNat < 128) (b : Fin 32768) (d : Fin 512) :
    val_main_v56 (F := Ideal) x0 x1 x3 x4 (ix2 b d)
      = x0 (ix2 b d) - Ideal.div (pick (x4 (ix1 b)) (fun k => csum (fun b d => x1 (ix2 b d)) (fun b => x3 (ix1 b)) k d))
          (max (pick (x4 (ix1 b)) (ccnt (fun b => x3 (ix1 b)))) one) := by
  rw [val_main_v56_apply, val_main_v47_apply, val_main_v46_apply, val_main_v45_apply,
    idx_row', val_main_v44_apply, val_main_v43_apply, val_main_cst_11_apply,
    RefTables.neg_sum_apply x1 x3 x4 h4, RefTables.neg_cnt_apply x3 x4 h4]
  simp only [Ideal.subf_def, Ideal.hostDivf_def, Ideal.maximumf_def, Ideal.ofBits_def]

/-- The left operand of the row-by-matrix product at output (b, d) and contraction index k is (b, k) … -/
private theorem lidx_pos (b : Fin 32768) (d k : Fin 512) : lidx_main_v49 (ix2 b d) k = ix2 b k := by
  funext a; match a with | ⟨0, _⟩ => rfl | ⟨1, _⟩ => rfl
/-- … and the right operand is (k, d). -/
private theorem ridx_pos (b : Fin 32768) (d k : Fin 512) : ridx_main_v49 (ix2 b d) k = ix2 k d := by
  funext a; match a with | ⟨0, _⟩ => rfl | ⟨1, _⟩ => rfl
/-- The row sum over the columns reads row b at column k. -/
private theorem ridx_sum_pos (b : Fin 32768) (k : Fin 512) : idx_main_v51 (ix1 b) k = ix2 b k := by
  funext a; match a with | ⟨0, _⟩ => rfl | ⟨1, _⟩ => rfl

/-- The quadratic form's summand at (b, d): (∑ j, v j · C j d) · v d for the positive difference row v. -/
private theorem quad_pos (x0 x1 : FVec Ideal S32768x512 .f32) (x2 : FVec Ideal S512x512 .f32) (x3 : IVec S32768 32)
    (b : Fin 32768) (d : Fin 512) :
    val_main_v50 (F := Ideal) x0 x1 x2 x3 (ix2 b d)
      = (∑ j : Fin 512, val_main_v48 (F := Ideal) x0 x1 x3 (ix2 b j) * x2 (ix2 j d)) * val_main_v48 (F := Ideal) x0 x1 x3 (ix2 b d) := by
  rw [val_main_v50_apply, val_main_v49_apply]
  simp only [lidx_pos, ridx_pos, Ideal.mulf_def]

/-- The positive distance: the Mahalanobis form of the positive difference row. -/
private theorem dist_pos (x0 x1 : FVec Ideal S32768x512 .f32) (x2 : FVec Ideal S512x512 .f32) (x3 : IVec S32768 32)
    (b : Fin 32768) :
    val_main_v55 (F := Ideal) x0 x1 x2 x3 (ix1 b)
      = dist (fun j d => x2 (ix2 j d)) (fun d => val_main_v48 (F := Ideal) x0 x1 x3 (ix2 b d)) := by
  rw [val_main_v55_apply, val_main_v54_apply, val_main_v52_apply, val_main_v53_apply, val_main_call0_v0_apply,
    val_main_cst_13_apply, val_main_call0_cst_apply, val_main_v51_apply, val_main_cst_12_apply]
  simp only [Cert.Triplet.dist, ridx_sum_pos, quad_pos, Ideal.ofBits_def, Ideal.ofBits_zero_f32, zero_add, Ideal.addf_def,
    Ideal.maximumf_def, Ideal.hostUnary_sqrt_def]

/-- The same three index equations for the negative centre's product and row sum. -/
private theorem lidx_neg (b : Fin 32768) (d k : Fin 512) : lidx_main_v57 (ix2 b d) k = ix2 b k := by
  funext a; match a with | ⟨0, _⟩ => rfl | ⟨1, _⟩ => rfl
private theorem ridx_neg (b : Fin 32768) (d k : Fin 512) : ridx_main_v57 (ix2 b d) k = ix2 k d := by
  funext a; match a with | ⟨0, _⟩ => rfl | ⟨1, _⟩ => rfl
private theorem ridx_sum_neg (b : Fin 32768) (k : Fin 512) : idx_main_v59 (ix1 b) k = ix2 b k := by
  funext a; match a with | ⟨0, _⟩ => rfl | ⟨1, _⟩ => rfl

/-- The quadratic form's summand at (b, d) for the negative difference row. -/
private theorem quad_neg (x0 x1 : FVec Ideal S32768x512 .f32) (x2 : FVec Ideal S512x512 .f32) (x3 x4 : IVec S32768 32)
    (b : Fin 32768) (d : Fin 512) :
    val_main_v58 (F := Ideal) x0 x1 x2 x3 x4 (ix2 b d)
      = (∑ j : Fin 512, val_main_v56 (F := Ideal) x0 x1 x3 x4 (ix2 b j) * x2 (ix2 j d)) * val_main_v56 (F := Ideal) x0 x1 x3 x4 (ix2 b d) := by
  rw [val_main_v58_apply, val_main_v57_apply]
  simp only [lidx_neg, ridx_neg, Ideal.mulf_def]

/-- The negative distance: the Mahalanobis form of the negative difference row. -/
private theorem dist_neg (x0 x1 : FVec Ideal S32768x512 .f32) (x2 : FVec Ideal S512x512 .f32) (x3 x4 : IVec S32768 32)
    (b : Fin 32768) :
    val_main_v63 (F := Ideal) x0 x1 x2 x3 x4 (ix1 b)
      = dist (fun j d => x2 (ix2 j d)) (fun d => val_main_v56 (F := Ideal) x0 x1 x3 x4 (ix2 b d)) := by
  rw [val_main_v63_apply, val_main_v62_apply, val_main_v60_apply, val_main_v61_apply, val_main_call1_v0_apply,
    val_main_cst_15_apply, val_main_call1_cst_apply, val_main_v59_apply, val_main_cst_14_apply]
  simp only [Cert.Triplet.dist, ridx_sum_neg, quad_neg, Ideal.ofBits_def, Ideal.ofBits_zero_f32, zero_add, Ideal.addf_def,
    Ideal.maximumf_def, Ideal.hostUnary_sqrt_def]

/-- One row's loss: the positive distance less the negative one plus the margin, cut at zero, is the row loss of the
    batch's own class tables. -/
private theorem row_loss (x0 x1 : FVec Ideal S32768x512 .f32) (x2 : FVec Ideal S512x512 .f32) (x3 x4 : IVec S32768 32)
    (h3 : ∀ b : Fin 32768, (x3 (ix1 b)).toNat < 128) (h4 : ∀ b : Fin 32768, (x4 (ix1 b)).toNat < 128) (b : Fin 32768) :
    val_main_v67 (F := Ideal) x0 x1 x2 x3 x4 (ix1 b)
      = rowLoss (csum (fun b d => x1 (ix2 b d)) (fun b => x3 (ix1 b))) (ccnt (fun b => x3 (ix1 b)))
          (fun j d => x2 (ix2 j d)) (x3 (ix1 b)) (x4 (ix1 b)) (fun d => x0 (ix2 b d)) (fun d => x1 (ix2 b d)) := by
  rw [val_main_v67_apply, val_main_v66_apply, val_main_v64_apply, val_main_v65_apply, val_main_call2_v0_apply,
    val_main_cst_16_apply, val_main_call2_cst_apply, dist_pos, dist_neg]
  simp only [rowLoss, pos_row x0 x1 x3 h3, neg_row x0 x1 x3 x4 h4, Ideal.ofBits_def, Ideal.addf_def, Ideal.subf_def,
    Ideal.maximumf_def]

/-- A rank-one index set is its coordinate range. -/
private def idx1 : S32768.Idx ≃ Fin 32768 where
  toFun i := i 0
  invFun := ix1
  left_inv i := (eq_ix1 i).symm
  right_inv _ := rfl

/-- The reference's result, for labels inside the label range, is the loss of its argument arrays. -/
theorem result_eq (x0 x1 : FVec Ideal S32768x512 .f32) (x2 : FVec Ideal S512x512 .f32) (x3 x4 : IVec S32768 32)
    (h3 : ∀ b : Fin 32768, (x3 (ix1 b)).toNat < 128) (h4 : ∀ b : Fin 32768, (x4 (ix1 b)).toNat < 128) (i : S_.Idx) :
    val_main_v69 (F := Ideal) x0 x1 x2 x3 x4 i
      = loss (fun b d => x0 (ix2 b d)) (fun b d => x1 (ix2 b d)) (fun j d => x2 (ix2 j d))
          (fun b => x3 (ix1 b)) (fun b => x4 (ix1 b)) := by
  rw [val_main_v69_apply, val_main_v68_apply, val_main_cst_17_apply, val_main_cst_18_apply,
    ← Equiv.sum_comp idx1.symm]
  simp only [loss, Ideal.hostDivf_def, Ideal.ofBits_def, Ideal.ofBits_zero_f32, zero_add]
  exact congrArg (fun s => Ideal.div s batch) (Finset.sum_congr rfl fun b _ => row_loss x0 x1 x2 x3 x4 h3 h4 b)

end Cert.ReferenceIdeal.RefValue

end
-- ==== Proof.PreRange.lean ====
/-
  The label range read off the printed precondition.

  The precondition is a conjunction of scalar bits; two of them are, for the labels and for the negative labels, "every word
  `w` has `0 ≤ w` and `w < 128` as signed integers". A word that is non-negative as a signed integer has its sign bit clear,
  so it is its own unsigned value, and that value is below 128.
-/
import proofs.«405454_j56848187129916_2_alg».proof.Pre_finite_inputs
import proofs.«405454_j56848187129916_2_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

set_option maxRecDepth 16384

noncomputable section

namespace Cert.Pre_finite_inputs.Range

open Idealize.ShloMosaic Idealize.ShloMosaic.ValueIdx
open Cert.Pre_finite_inputs

/-- A 32-bit word that is signed-at-least 0 and signed-below 128 has its sign bit clear, so its signed and
    unsigned readings agree, and the value is below 128. -/
private theorem toNat_lt_of_cmpi (w : BitVec 32) (h0 : IntOp.cmpi .sge w 0#32 = 1#1)
    (h1 : IntOp.cmpi .slt w 128#32 = 1#1) : w.toNat < 128 := by
  rw [IntOp.cmpi_sge] at h0
  rw [IntOp.cmpi_slt] at h1
  have e0 : (0#32 : BitVec 32).toInt = 0 := by decide
  have e1 : (128#32 : BitVec 32).toInt = 128 := by decide
  rw [e0] at h0
  rw [e1] at h1
  have hc := BitVec.toInt_eq_toNat_cond w
  have hlt := w.isLt
  split at hc <;> omega

/-- One array's conjunct: when the conjunction over all positions of "0 ≤ word" and "word < 128" (both signed,
    against the broadcast constants) is true, every word of the array is below 128. -/
private theorem range_of_all [Cert.Pre_finite_inputs.Facts] (x : IVec S32768 32) (init : IVec S_ 1)
    (e : Host.reduce IntOp.andi
          (andi (cmpi .sge x (broadcastInDim S32768 ![] Facts.bcast_S_S32768 (constantI S_ 32 0#32)))
                (cmpi .slt x (broadcastInDim S32768 ![] Facts.bcast_S_S32768 (constantI S_ 32 128#32))))
          init Facts.reducesTo_S32768_S_d0 Facts.h_S_ ix0 = 1#1)
    (b : Fin 32768) : (x (ix1 b)).toNat < 128 := by
  haveI : Subsingleton S_.Idx := ⟨fun a b => funext fun d => d.elim0⟩
  have hb := Host.reduce_andi_all _ _ _ _ _ e (ix1 b)
  have hb' : IntOp.andi (IntOp.cmpi .sge (x (ix1 b)) 0#32) (IntOp.cmpi .slt (x (ix1 b)) 128#32) = 1#1 := hb
  obtain ⟨h0, h1⟩ := IntOp.andi_eq_one.1 hb'
  exact toNat_lt_of_cmpi _ h0 h1

/-- Where the precondition holds, every label word and every negative-label word is inside `[0, 128)`. -/
theorem labels_lt [Cert.Pre_finite_inputs.Facts] (a0 a1 : FVec Ideal S32768x512 .f32) (a2 : FVec Ideal S512x512 .f32)
    (x3 x4 : IVec S32768 32)
    (h : Cert.Pre_finite_inputs.fn (F := Ideal) a0 a1 a2 x3 x4 = fun _ => 1#1) :
    (∀ b : Fin 32768, (x3 (ix1 b)).toNat < 128) ∧ (∀ b : Fin 32768, (x4 (ix1 b)).toNat < 128) := by
  have h0 := congrFun h ValueIdx.ix0
  dsimp only [Cert.Pre_finite_inputs.fn, Cert.Pre_finite_inputs.fn_part1] at h0
  -- the result is the conjunction ((floats finite) ∧ all-of-x3) ∧ all-of-x4, read at the one scalar index
  obtain ⟨h20, h26⟩ := IntOp.andi_eq_one.1 h0
  obtain ⟨_, h19⟩ := IntOp.andi_eq_one.1 h20
  exact ⟨range_of_all x3 _ h19, range_of_all x4 _ h26⟩

end Cert.Pre_finite_inputs.Range

end
-- ==== Proof.lean ====
/-
  The certificate of the centroid triplet loss kernel against its jnp reference, over the extended reals.

  The kernel computes the per-class sums and counts of the embedding rows by one-hot matrix products, accumulated block by
  block over two halves of the batch and added on the host; then, per block of 2048 rows, each row's positive and negative
  class centres by one-hot products with those tables, the two Mahalanobis distances, the margin loss, and the sum of the
  block's losses, accumulated per half, added on the host and divided by the batch size. The reference computes the same
  tables by a scatter-add over the labels, reads them by a gather at the labels, and takes the mean of the row losses.
  For labels inside the label range `[0, 128)` — the added precondition — a gather at a label is the one-hot product, so
  both programs end at `Cert.Triplet.loss` of the argument arrays (Proof/Spec.lean): the kernel by `HostValue.result_value`
  over its run with the result named, the reference by `RefValue.result_eq` over its run. Outside that range the reference
  indexes its tables out of range (a clamped read, a dropped update) where the kernel's one-hot row is zero.
  The three frames are the generated ones; the ideal pass rewrote nothing, so `preserves` is `True`.
-/
import proofs.«405454_j56848187129916_2_alg».proof.Defs
import proofs.«405454_j56848187129916_2_alg».proof.Proof.Gen.Kernel
import proofs.«405454_j56848187129916_2_alg».proof.Proof.Gen.Kernel.Skeleton
import proofs.«405454_j56848187129916_2_alg».proof.Proof.Gen.Kernel.Launch
import proofs.«405454_j56848187129916_2_alg».proof.Proof.Gen.Kernel.Points
import proofs.«405454_j56848187129916_2_alg».proof.Proof.Gen.Kernel.Frame
import proofs.«405454_j56848187129916_2_alg».proof.Proof.Gen.KernelIdeal
import proofs.«405454_j56848187129916_2_alg».proof.Proof.Gen.KernelIdeal.Skeleton
import proofs.«405454_j56848187129916_2_alg».proof.Proof.Gen.KernelIdeal.Launch
import proofs.«405454_j56848187129916_2_alg».proof.Proof.Gen.KernelIdeal.Points
import proofs.«405454_j56848187129916_2_alg».proof.Proof.Gen.KernelIdeal.Frame
import proofs.«405454_j56848187129916_2_alg».proof.Proof.Gen.ReferenceIdeal
import proofs.«405454_j56848187129916_2_alg».proof.Proof.Gen.Pre_finite_inputs
import proofs.«405454_j56848187129916_2_alg».proof.Proof.Gen.ReferenceIdeal.Run
import proofs.«405454_j56848187129916_2_alg».proof.Proof.Gen.ReferenceIdeal.Read
import proofs.«405454_j56848187129916_2_alg».proof.Proof.Spec
import proofs.«405454_j56848187129916_2_alg».proof.Proof.KRun
import proofs.«405454_j56848187129916_2_alg».proof.Proof.KHost
import proofs.«405454_j56848187129916_2_alg».proof.Proof.RefValue
import proofs.«405454_j56848187129916_2_alg».proof.Proof.PreRange
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments, with the labels inside `[0, 128)`, both programs end with the loss of the
    arguments in their result buffer. -/
theorem algebraic : Cert.algebraic_KernelIdeal_ReferenceIdeal := by
  intro m ρ m' ρ' hpre hagree
  refine ⟨fun c => ((fun _ => Cert.Triplet.loss (Cert.KernelIdeal.HostValue.argA m c) (Cert.KernelIdeal.HostValue.argE m c)
      (Cert.KernelIdeal.HostValue.argC m c) (Cert.KernelIdeal.HostValue.argL m c) (Cert.KernelIdeal.HostValue.argN m c)) :
        Cert.KernelIdeal.S_.Idx → EReal), ?_, ?_⟩
  · refine (θ_run Cert.KernelIdeal.defs _ _).mono (fun r h c => ⟨(h c).1.trans ?_, (h c).2⟩)
      (Cert.KernelIdeal.GenRun.run_named (F := Ideal) m ρ)
    exact funext fun i => Cert.KernelIdeal.HostValue.result_value m ρ c i
  · refine (θ_run Cert.ReferenceIdeal.defs _ _).mono (fun r h c => ⟨(h c).1.trans ?_, (h c).2⟩)
      (Cert.ReferenceIdeal.Value.run (F := Ideal) m' ρ')
    obtain ⟨h3, h4⟩ := Cert.Pre_finite_inputs.Range.labels_lt _ _ _ _ _ (hpre c)
    rw [Cert.ReferenceIdeal.Read.val_main_v69_eq, (hagree c).1, (hagree c).2.1, (hagree c).2.2.1, (hagree c).2.2.2.1,
      (hagree c).2.2.2.2]
    exact funext fun i => Cert.ReferenceIdeal.RefValue.result_eq _ _ _ _ _ h3 h4 i

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
